-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x14x14 : Shape := ⟨4, ![256, 512, 14, 14]⟩
abbrev S_ : Shape := ⟨0, ![]⟩

class Facts : Prop where
  bcast_S_S256x512x14x14 : S_.BroadcastsInDim S256x512x14x14 (![] : Fin 0 → Fin S256x512x14x14.rank)
  reducesTo_S256x512x14x14_S_d0_1_2_3 : S256x512x14x14.ReducesTo [0, 1, 2, 3] S_
  h_S_ : 0 < S_.numel

variable [Facts]

def fn {F : FTy → Type} [FloatOps F] (main_arg0 : FVec F S256x512x14x14 .f32) (main_arg1 : FVec F S256x512x14x14 .f32) : IVec S_ 1 :=
  let main_v0 : FVec F S256x512x14x14 .f32 := Host.absf main_arg0
  let main_cst : FVec F S_ .f32 := constant S_ .f32 0x7F800000#32
  let main_v1 : FVec F S256x512x14x14 .f32 := broadcastInDim S256x512x14x14 ![] bcast_S_S256x512x14x14 main_cst
  let main_v2 : IVec S256x512x14x14 1 := cmpf .olt main_v0 main_v1
  let main_c : IVec S_ 1 := constantI S_ 1 1#1
  let main_v3 : IVec S_ 1 := (fun x v => Host.reduce IntOp.andi x v reducesTo_S256x512x14x14_S_d0_1_2_3 h_S_) main_v2 main_c
  let main_v4 : FVec F S256x512x14x14 .f32 := Host.absf main_arg1
  let main_cst_0 : FVec F S_ .f32 := constant S_ .f32 0x7F800000#32
  let main_v5 : FVec F S256x512x14x14 .f32 := broadcastInDim S256x512x14x14 ![] bcast_S_S256x512x14x14 main_cst_0
  let main_v6 : IVec S256x512x14x14 1 := cmpf .olt main_v4 main_v5
  let main_c_1 : IVec S_ 1 := constantI S_ 1 1#1
  let main_v7 : IVec S_ 1 := (fun x v => Host.reduce IntOp.andi x v reducesTo_S256x512x14x14_S_d0_1_2_3 h_S_) main_v6 main_c_1
  let main_v8 : IVec S_ 1 := andi main_v3 main_v7
  main_v8
-- ==== Kernel.lean ====
abbrev S256x512x14x14 : Shape := ⟨4, ![256, 512, 14, 14]⟩
abbrev S256x100352 : Shape := ⟨2, ![256, 100352]⟩
abbrev S2x256x256 : Shape := ⟨3, ![2, 256, 256]⟩
abbrev S2x256x1 : Shape := ⟨3, ![2, 256, 1]⟩
abbrev S256x6272 : Shape := ⟨2, ![256, 6272]⟩
abbrev S1x256x256 : Shape := ⟨3, ![1, 256, 256]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩
abbrev S6272x256 : Shape := ⟨2, ![6272, 256]⟩
abbrev S_ : Shape := ⟨0, ![]⟩
abbrev S1x256 : Shape := ⟨2, ![1, 256]⟩

abbrev nBuf : Space → Nat
  | .hbm => 90
  | .vmem => 14
  | .smem => 0
  | _ => 0

abbrev bufTy : (tb : Table) → Fin (tcTables nBuf tb) → BufTy
  | .hbm, ⟨0, _⟩ => ⟨S256x512x14x14, .f32⟩
  | .hbm, ⟨1, _⟩ => ⟨S256x512x14x14, .f32⟩
  | .hbm, ⟨2, _⟩ => ⟨S256x100352, .f32⟩
  | .hbm, ⟨3, _⟩ => ⟨S256x100352, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x1, .f32⟩
  | .hbm, ⟨8, _⟩ => ⟨S2x256x1, .f32⟩
  | .hbm, ⟨9, _⟩ => ⟨S_, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S_, .f32⟩
  | .hbm, ⟨16, _⟩ => ⟨S256x1, .f32⟩
  | .hbm, ⟨17, _⟩ => ⟨S256, .f32⟩
  | .hbm, ⟨18, _⟩ => ⟨S_, .f32⟩
  | .hbm, ⟨19, _⟩ => ⟨S256x1, .f32⟩
  | .hbm, ⟨20, _⟩ => ⟨S256, .f32⟩
  | .hbm, ⟨21, _⟩ => ⟨S256x1, .f32⟩
  | .hbm, ⟨22, _⟩ => ⟨S1x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x1, .f32⟩
  | .hbm, ⟨42, _⟩ => ⟨S1x256, .f32⟩
  | .hbm, ⟨43, _⟩ => ⟨S256x256, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x1, .f32⟩
  | .hbm, ⟨62, _⟩ => ⟨S1x256, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S_, .f32⟩
  | .hbm, ⟨67, _⟩ => ⟨S256x256, .f32⟩
  | .hbm, ⟨68, _⟩ => ⟨S256x256, .f32⟩
  | .hbm, ⟨69, _⟩ => ⟨S256x256, .f32⟩
  | .hbm, ⟨70, _⟩ => ⟨S_, .f32⟩
  | .hbm, ⟨71, _⟩ => ⟨S256x256, .f32⟩
  | .hbm, ⟨72, _⟩ => ⟨S256x256, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .f32⟩
  | .hbm, ⟨78, _⟩ => ⟨S256x256, .f32⟩
  | .hbm, ⟨79, _⟩ => ⟨S256x256, .f32⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S256x6272, .f32⟩
  | .local _ .vmem, ⟨1, _⟩ => ⟨S256x6272, .f32⟩
  | .local _ .vmem, ⟨2, _⟩ => ⟨S256x6272, .f32⟩
  | .local _ .vmem, ⟨3, _⟩ => ⟨S256x6272, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | _, _ => ⟨S256x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x6272 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S256x512x14x14_S256x100352 : S256x512x14x14.ShapeCasts S256x100352
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S256x6272_S256x6272_0_0 : ∀ a, (![0, 0] : Fin 2 → Nat) a + S256x6272.size a ≤ S256x6272.size a
  h_S256x6272 : 0 < S256x6272.numel
  shapeCasts_S256x6272_S256x6272 : S256x6272.ShapeCasts S256x6272
  reduces_S256x6272_S256 : S256x6272.Reduces [1] S256
  shapeCasts_S256_S256x1 : S256.ShapeCasts S256x1
  bitsLt_bf16_f32 : FTy.bits .bf16 < FTy.bits .f32
  transposes_S256x6272_p1_0_S6272x256 : S256x6272.Transposes [1, 0] S6272x256
  reducesTo_S2x256x256_S256x256_d0 : S2x256x256.ReducesTo [0] S256x256
  h_S_ : 0 < S_.numel
  reducesTo_S2x256x1_S256x1_d0 : S2x256x1.ReducesTo [0] S256x1
  shapeCasts_S256x1_S256 : S256x1.ShapeCasts S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S_d0_1 : S256x256.ReducesTo [0, 1] S_
  dot_S256x6272_S6272x256_S256x256_1_0_0_1_n_n_wf : DotDims.WF S256x6272 S6272x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6272.size a ≤ S256x100352.size a
  hwx0_0 : ∀ i : grid0.Coords, EltTy.bits .f32 = 32 ∨ (Rect.block (s := S256x100352) S256x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6272.size a ≤ S256x100352.size a
  hwx0_1 : ∀ i : grid0.Coords, EltTy.bits .f32 = 32 ∨ (Rect.block (s := S256x100352) S256x6272.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S2x256x256.size a
  hwx0_3 : ∀ i : grid0.Coords, EltTy.bits .f32 = 32 ∨ (Rect.block (s := S2x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S2x256x256.size a
  hwx0_4 : ∀ i : grid0.Coords, EltTy.bits .f32 = 32 ∨ (Rect.block (s := S2x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1.size a ≤ S2x256x1.size a
  hwx0_5 : ∀ i : grid0.Coords, EltTy.bits .f32 = 32 ∨ (Rect.block (s := S2x256x1) S1x256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1.size a ≤ S2x256x1.size a
  hwx0_6 : ∀ i : grid0.Coords, EltTy.bits .f32 = 32 ∨ (Rect.block (s := S2x256x1) S1x256x1.size (cc0_transform_6 i) (hinb0_6 i)).WholeWords (EltTy.packing .f32)

variable [Facts₀]

def dot_S256x6272_S6272x256_S256x256_1_0_0_1_n_n : DotDims S256x6272 S6272x256 S256x256 where
  lhsContracting := [1]
  rhsContracting := [0]
  lhsNonContracting := [0]
  rhsNonContracting := [1]
  lhsBatch := []
  rhsBatch := []
  wf := dot_S256x6272_S6272x256_S256x256_1_0_0_1_n_n_wf

abbrev win0_0 : Pipeline.Window sig grid0 :=
  Pipeline.Window.ofSpec (Memref.whole main_v0) S256x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x6272.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_4) S1x256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512x14x14 : Shape := ⟨4, ![256, 512, 14, 14]⟩
abbrev S256x100352 : Shape := ⟨2, ![256, 100352]⟩
abbrev S_ : Shape := ⟨0, ![]⟩
abbrev S256 : Shape := ⟨1, ![256]⟩
abbrev S100352x256 : Shape := ⟨2, ![100352, 256]⟩
abbrev S256x256 : Shape := ⟨2, ![256, 256]⟩
abbrev S256x1 : Shape := ⟨2, ![256, 1]⟩
abbrev S1x256 : Shape := ⟨2, ![1, 256]⟩

abbrev nBuf : Space → Nat
  | .hbm => 97
  | .vmem => 0
  | .smem => 0
  | _ => 0

abbrev bufTy : (tb : Table) → Fin (tcTables nBuf tb) → BufTy
  | .hbm, ⟨0, _⟩ => ⟨S256x512x14x14, .f32⟩
  | .hbm, ⟨1, _⟩ => ⟨S256x512x14x14, .f32⟩
  | .hbm, ⟨2, _⟩ => ⟨S256x100352, .f32⟩
  | .hbm, ⟨3, _⟩ => ⟨S256x100352, .f32⟩
  | .hbm, ⟨4, _⟩ => ⟨S256x100352, .f32⟩
  | .hbm, ⟨5, _⟩ => ⟨S_, .f32⟩
  | .hbm, ⟨6, _⟩ => ⟨S256, .f32⟩
  | .hbm, ⟨7, _⟩ => ⟨S256x100352, .f32⟩
  | .hbm, ⟨8, _⟩ => ⟨S_, .f32⟩
  | .hbm, ⟨9, _⟩ => ⟨S256, .f32⟩
  | .hbm, ⟨10, _⟩ => ⟨S100352x256, .f32⟩
  | .hbm, ⟨11, _⟩ => ⟨S256x256, .f32⟩
  | .hbm, ⟨12, _⟩ => ⟨S256x1, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x100352, .f32⟩
  | .hbm, ⟨33, _⟩ => ⟨S_, .f32⟩
  | .hbm, ⟨34, _⟩ => ⟨S256, .f32⟩
  | .hbm, ⟨35, _⟩ => ⟨S256x100352, .f32⟩
  | .hbm, ⟨36, _⟩ => ⟨S_, .f32⟩
  | .hbm, ⟨37, _⟩ => ⟨S256, .f32⟩
  | .hbm, ⟨38, _⟩ => ⟨S100352x256, .f32⟩
  | .hbm, ⟨39, _⟩ => ⟨S256x256, .f32⟩
  | .hbm, ⟨40, _⟩ => ⟨S256x1, .f32⟩
  | .hbm, ⟨41, _⟩ => ⟨S1x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x100352, .f32⟩
  | .hbm, ⟨61, _⟩ => ⟨S_, .f32⟩
  | .hbm, ⟨62, _⟩ => ⟨S256, .f32⟩
  | .hbm, ⟨63, _⟩ => ⟨S256x100352, .f32⟩
  | .hbm, ⟨64, _⟩ => ⟨S_, .f32⟩
  | .hbm, ⟨65, _⟩ => ⟨S256, .f32⟩
  | .hbm, ⟨66, _⟩ => ⟨S100352x256, .f32⟩
  | .hbm, ⟨67, _⟩ => ⟨S256x256, .f32⟩
  | .hbm, ⟨68, _⟩ => ⟨S256x1, .f32⟩
  | .hbm, ⟨69, _⟩ => ⟨S1x256, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .f32⟩
  | .hbm, ⟨78, _⟩ => ⟨S256x256, .f32⟩
  | .hbm, ⟨79, _⟩ => ⟨S256x256, .f32⟩
  | .hbm, ⟨80, _⟩ => ⟨S_, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S_, .f32⟩
  | .hbm, ⟨90, _⟩ => ⟨S256x256, .f32⟩
  | .hbm, ⟨91, _⟩ => ⟨S256x256, .f32⟩
  | .hbm, ⟨92, _⟩ => ⟨S256x256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S256x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_v61 : Ref sig .tc := ⟨.hbm, 79, rfl⟩
abbrev main_cst_15 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_16 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_17 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  shapeCasts_S256x512x14x14_S256x100352 : S256x512x14x14.ShapeCasts S256x100352
  reducesTo_S256x100352_S256_d1 : S256x100352.ReducesTo [1] S256
  h_S_ : 0 < S_.numel
  transposes_S256x100352_S100352x256_1_0 : S256x100352.Transposes [1, 0] S100352x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S_d0_1 : S256x256.ReducesTo [0, 1] S_
  dot_S256x100352_S100352x256_S256x256_1_0_0_1_n_n_wf : DotDims.WF S256x100352 S100352x256 S256x256 [1] [0] [0] [1] [] []

variable [Facts₀]

def dot_S256x100352_S100352x256_S256x256_1_0_0_1_n_n : DotDims S256x100352 S100352x256 S256x256 where
  lhsContracting := [1]
  rhsContracting := [0]
  lhsNonContracting := [0]
  rhsNonContracting := [1]
  lhsBatch := []
  rhsBatch := []
  wf := dot_S256x100352_S100352x256_S256x256_1_0_0_1_n_n_wf

class Facts : Prop extends Facts₀ where

variable [Facts]
-- ==== Proof.KKit.lean ====
/-
  The launch side of `Kernel`'s run, for any float instance: the buffer contents the kernel region is
  entered with (after the two reshapes of the arguments into [256, 100352]), the program cut as "two host lines, the
  region, eighty-one host lines", the facts the later lines owe the launch (they touch unscoped buffers only, allocate
  nothing, and write none of the seven arrays the region stages), each window's block at a grid point, the one branch
  condition of the body (second grid coordinate zero: the first chunk of a half) decided over the sixteen points, and
  the frame claim's postcondition read off a run that names every array after the region.
-/
import proofs.«125071_j71829033058812_1_alg».proof.Proof.Gen.Kernel.Launch
import proofs.«125071_j71829033058812_1_alg».proof.Proof.Gen.Kernel.Skeleton
import proofs.«125071_j71829033058812_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 8000000 in
/-- @main is the two reshapes, the region, and the region continued by the eighty-one later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: with nothing prefetched these are the arrays and the
    buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 8000000 in
/-- No later line writes array `w` of the region: each writes its own result buffer, which is none of the seven. -/
theorem hostOps1_keeps (w : Fin 7) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (hostOps1_keeps w)) op hop

/-- No host line before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes the first argument either: after them it holds its launch contents. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names the arrays -/

/-- Neither argument is an array the region stages, so each is read at the post's second clause: what the later lines
    leave in it, which is what it held at launch. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at the points that are multiples of eight: the first chunk of each half. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point -/

/-- One staging buffer of each output window, through which its contents are stated. -/
abbrev VO0_2 : View sig .tc .vmem S1x256x256 .f32 := (Memref.whole cc0_stg2_0 : Memref sig .tc .vmem S1x256x256 .f32).view
abbrev VO0_3 : View sig .tc .vmem S1x256x256 .f32 := (Memref.whole cc0_stg3_0 : Memref sig .tc .vmem S1x256x256 .f32).view
abbrev VO0_4 : View sig .tc .vmem S1x256x256 .f32 := (Memref.whole cc0_stg4_0 : Memref sig .tc .vmem S1x256x256 .f32).view
abbrev VO0_5 : View sig .tc .vmem S1x256x1 .f32 := (Memref.whole cc0_stg5_0 : Memref sig .tc .vmem S1x256x1 .f32).view
abbrev VO0_6 : View sig .tc .vmem S1x256x1 .f32 := (Memref.whole cc0_stg6_0 : Memref sig .tc .vmem S1x256x1 .f32).view
/-- Each window's current staging memref at point `t`, as the pipeline passes it, and its wholeness. -/
abbrev ms0_0 (t : Fin cfg0.N) : Memref sig .tc .vmem S256x6272 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6272 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1 .f32 := win0_6.stage (cfg0.slots t 6)
abbrev hs0_6 (t : Fin cfg0.N) : (ms0_6 t).IsWhole := hstage0_6 ((cfg0.slots t 6).cast nbuf0_6)

end Cert.Kernel.Fr

end
-- ==== Proof.KRunA.lean ====
/-
  The kernel body run whole at a grid point whose second coordinate is zero (the first chunk of a half), on any whole
  staging memrefs: the five output buffers, holding anything, are first stored zero over their whole extent, then
  each is read back and stored again with the chunk's contribution added. What the stores leave in each output buffer
  is a list of pieces the symbolic run finds; the two input buffers end as they were.
-/
import proofs.«125071_j71829033058812_1_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the resetting case: from the inputs at `x0`, `x1` and the outputs at anything, it runs to any
    continuation that takes the inputs back unchanged and each output with its pieces written. -/
noncomputable def kernelRun0_A (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    Σ' (L2 : List (View.Piece (Elt F) S1x256x256 .f32)) (L3 : List (View.Piece (Elt F) S1x256x256 .f32)) (L4 : List (View.Piece (Elt F) S1x256x256 .f32)) (L5 : List (View.Piece (Elt F) S1x256x1 .f32)), { L6 : List (View.Piece (Elt F) S1x256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Fr

end
-- ==== Proof.KRunB.lean ====
/-
  The kernel body run whole at a grid point whose second coordinate is not zero (a later chunk of a half), on any
  whole staging memrefs: each of the five output buffers holds a running value, is read, and is stored again with the
  chunk's contribution added. What the stores leave in each output buffer is a list of pieces the symbolic run finds;
  the two input buffers end as they were.
-/
import proofs.«125071_j71829033058812_1_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the accumulating case: from the inputs at `x0`, `x1` and the outputs at their running contents
    `xo2 … xo6`, it runs to any continuation that takes the inputs back unchanged and each output with its pieces
    written. -/
noncomputable def kernelRun0_B (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32)
    (xo2 : Vec F S1x256x256 .f32) (xo3 : Vec F S1x256x256 .f32) (xo4 : Vec F S1x256x256 .f32) (xo5 : Vec F S1x256x1 .f32) (xo6 : Vec F S1x256x1 .f32) :
    Σ' (L2 : List (View.Piece (Elt F) S1x256x256 .f32)) (L3 : List (View.Piece (Elt F) S1x256x256 .f32)) (L4 : List (View.Piece (Elt F) S1x256x256 .f32)) (L5 : List (View.Piece (Elt F) S1x256x1 .f32)), { L6 : List (View.Piece (Elt F) S1x256x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ owns (c : Thread nD τ) arg7 fullShare xo5 ∗ owns (c : Thread nD τ) arg8 fullShare xo6
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Fr

end
-- ==== Proof.KFrame.lean ====
/-
  The frame of `Kernel`, for any float instance. Per case of the body's one branch, what each of the five
  output buffers holds after the body (the stored pieces read back); point by point over the sixteen grid points, what
  they hold after point `n`: at a multiple of eight the resetting case's contents, elsewhere the accumulating case's
  over what the point before left (an output block is written back only at the last chunk of a half, so between two
  chunks of one half the buffer keeps the running value). From these the pipeline's proof data, the body's obligation
  at a generic point, the run of @main with every array after the region named, and the frame claim.
-/
import proofs.«125071_j71829033058812_1_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the resetting case the pieces stored into output window 2's buffer tile it, so they cover it. -/
theorem cover0_A_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x256.Idx) :
    ∃ pc ∈ (kernelRun0_A c i arg2 harg2 arg3 harg3 arg4 harg4 arg5 harg5 arg6 harg6 arg7 harg7 arg8 harg8 hc0 x0 x1).1, y ∈ pc.1.set :=
  View.cover_of_tiledL (kernelRun0_A c i arg2 harg2 arg3 harg3 arg4 harg4 arg5 harg5 arg6 harg6 arg7 harg7 arg8 harg8 hc0 x0 x1).1 S1x256x256.size (by sl_kernel_rfl) y

/-- What the resetting case leaves in output window 2's buffer: its pieces read back. -/
def out0_A_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x256 .f32 :=
  VO0_2.read (Elt F) (VO0_2.writes (Elt F) VO0_2.junk (kernelRun0_A c i arg2 harg2 arg3 harg3 arg4 harg4 arg5 harg5 arg6 harg6 arg7 harg7 arg8 harg8 hc0 x0 x1).1)

/-- In the accumulating case the pieces stored into output window 2's buffer tile it, so they cover it. -/
theorem cover0_B_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).1 S1x256x256.size (by sl_kernel_rfl) y

/-- What the accumulating case leaves in output window 2's buffer: its pieces read back. -/
def out0_B_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x256 .f32 :=
  VO0_2.read (Elt F) (VO0_2.writes (Elt F) VO0_2.junk (kernelRun0_B c i arg2 harg2 arg3 harg3 arg4 harg4 arg5 harg5 arg6 harg6 arg7 harg7 arg8 harg8 hc0 x0 x1 xo2 xo3 xo4 xo5 xo6).1)

/-- In the resetting case the pieces stored into output window 3's buffer tile it, so they cover it. -/
theorem cover0_A_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x256.Idx) :
    ∃ pc ∈ (kernelRun0_A c i arg2 harg2 arg3 harg3 arg4 harg4 arg5 harg5 arg6 harg6 arg7 harg7 arg8 harg8 hc0 x0 x1).2.1, y ∈ pc.1.set :=
  View.cover_of_tiledL (kernelRun0_A c i arg2 harg2 arg3 harg3 arg4 harg4 arg5 harg5 arg6 harg6 arg7 harg7 arg8 harg8 hc0 x0 x1).2.1 S1x256x256.size (by sl_kernel_rfl) y

/-- What the resetting case leaves in output window 3's buffer: its pieces read back. -/
def out0_A_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x256 .f32 :=
  VO0_3.read (Elt F) (VO0_3.writes (Elt F) VO0_3.junk (kernelRun0_A c i arg2 harg2 arg3 harg3 arg4 harg4 arg5 harg5 arg6 harg6 arg7 harg7 arg8 harg8 hc0 x0 x1).2.1)

/-- In the accumulating case the pieces stored into output window 3's buffer tile it, so they cover it. -/
theorem cover0_B_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.1 S1x256x256.size (by sl_kernel_rfl) y

/-- What the accumulating case leaves in output window 3's buffer: its pieces read back. -/
def out0_B_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x256 .f32 :=
  VO0_3.read (Elt F) (VO0_3.writes (Elt F) VO0_3.junk (kernelRun0_B c i arg2 harg2 arg3 harg3 arg4 harg4 arg5 harg5 arg6 harg6 arg7 harg7 arg8 harg8 hc0 x0 x1 xo2 xo3 xo4 xo5 xo6).2.1)

/-- In the resetting case the pieces stored into output window 4's buffer tile it, so they cover it. -/
theorem cover0_A_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x256.Idx) :
    ∃ pc ∈ (kernelRun0_A c i arg2 harg2 arg3 harg3 arg4 harg4 arg5 harg5 arg6 harg6 arg7 harg7 arg8 harg8 hc0 x0 x1).2.2.1, y ∈ pc.1.set :=
  View.cover_of_tiledL (kernelRun0_A c i arg2 harg2 arg3 harg3 arg4 harg4 arg5 harg5 arg6 harg6 arg7 harg7 arg8 harg8 hc0 x0 x1).2.2.1 S1x256x256.size (by sl_kernel_rfl) y

/-- What the resetting case leaves in output window 4's buffer: its pieces read back. -/
def out0_A_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x256 .f32 :=
  VO0_4.read (Elt F) (VO0_4.writes (Elt F) VO0_4.junk (kernelRun0_A c i arg2 harg2 arg3 harg3 arg4 harg4 arg5 harg5 arg6 harg6 arg7 harg7 arg8 harg8 hc0 x0 x1).2.2.1)

/-- In the accumulating case the pieces stored into output window 4's buffer tile it, so they cover it. -/
theorem cover0_B_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.1 S1x256x256.size (by sl_kernel_rfl) y

/-- What the accumulating case leaves in output window 4's buffer: its pieces read back. -/
def out0_B_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x256 .f32 :=
  VO0_4.read (Elt F) (VO0_4.writes (Elt F) VO0_4.junk (kernelRun0_B c i arg2 harg2 arg3 harg3 arg4 harg4 arg5 harg5 arg6 harg6 arg7 harg7 arg8 harg8 hc0 x0 x1 xo2 xo3 xo4 xo5 xo6).2.2.1)

/-- In the resetting case the pieces stored into output window 5's buffer tile it, so they cover it. -/
theorem cover0_A_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x1.Idx) :
    ∃ pc ∈ (kernelRun0_A c i arg2 harg2 arg3 harg3 arg4 harg4 arg5 harg5 arg6 harg6 arg7 harg7 arg8 harg8 hc0 x0 x1).2.2.2.1, y ∈ pc.1.set :=
  View.cover_of_tiledL (kernelRun0_A c i arg2 harg2 arg3 harg3 arg4 harg4 arg5 harg5 arg6 harg6 arg7 harg7 arg8 harg8 hc0 x0 x1).2.2.2.1 S1x256x1.size (by sl_kernel_rfl) y

/-- What the resetting case leaves in output window 5's buffer: its pieces read back. -/
def out0_A_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x1 .f32 :=
  VO0_5.read (Elt F) (VO0_5.writes (Elt F) VO0_5.junk (kernelRun0_A c i arg2 harg2 arg3 harg3 arg4 harg4 arg5 harg5 arg6 harg6 arg7 harg7 arg8 harg8 hc0 x0 x1).2.2.2.1)

/-- In the accumulating case the pieces stored into output window 5's buffer tile it, so they cover it. -/
theorem cover0_B_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x1.Idx) :
    ∃ pc ∈ (kernelRun0_B c i arg2 harg2 arg3 harg3 arg4 harg4 arg5 harg5 arg6 harg6 arg7 harg7 arg8 harg8 hc0 x0 x1 xo2 xo3 xo4 xo5 xo6).2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.1 S1x256x1.size (by sl_kernel_rfl) y

/-- What the accumulating case leaves in output window 5's buffer: its pieces read back. -/
def out0_B_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x1 .f32 :=
  VO0_5.read (Elt F) (VO0_5.writes (Elt F) VO0_5.junk (kernelRun0_B c i arg2 harg2 arg3 harg3 arg4 harg4 arg5 harg5 arg6 harg6 arg7 harg7 arg8 harg8 hc0 x0 x1 xo2 xo3 xo4 xo5 xo6).2.2.2.1)

/-- In the resetting case the pieces stored into output window 6's buffer tile it, so they cover it. -/
theorem cover0_A_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x1.Idx) :
    ∃ pc ∈ (kernelRun0_A c i arg2 harg2 arg3 harg3 arg4 harg4 arg5 harg5 arg6 harg6 arg7 harg7 arg8 harg8 hc0 x0 x1).2.2.2.2.1, y ∈ pc.1.set :=
  View.cover_of_tiledL (kernelRun0_A c i arg2 harg2 arg3 harg3 arg4 harg4 arg5 harg5 arg6 harg6 arg7 harg7 arg8 harg8 hc0 x0 x1).2.2.2.2.1 S1x256x1.size (by sl_kernel_rfl) y

/-- What the resetting case leaves in output window 6's buffer: its pieces read back. -/
def out0_A_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x1 .f32 :=
  VO0_6.read (Elt F) (VO0_6.writes (Elt F) VO0_6.junk (kernelRun0_A c i arg2 harg2 arg3 harg3 arg4 harg4 arg5 harg5 arg6 harg6 arg7 harg7 arg8 harg8 hc0 x0 x1).2.2.2.2.1)

/-- In the accumulating case the pieces stored into output window 6's buffer tile it, so they cover it. -/
theorem cover0_B_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x1.Idx) :
    ∃ pc ∈ (kernelRun0_B c i arg2 harg2 arg3 harg3 arg4 harg4 arg5 harg5 arg6 harg6 arg7 harg7 arg8 harg8 hc0 x0 x1 xo2 xo3 xo4 xo5 xo6).2.2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.2.1 S1x256x1.size (by sl_kernel_rfl) y

/-- What the accumulating case leaves in output window 6's buffer: its pieces read back. -/
def out0_B_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x1 .f32 :=
  VO0_6.read (Elt F) (VO0_6.writes (Elt F) VO0_6.junk (kernelRun0_B c i arg2 harg2 arg3 harg3 arg4 harg4 arg5 harg5 arg6 harg6 arg7 harg7 arg8 harg8 hc0 x0 x1 xo2 xo3 xo4 xo5 xo6).2.2.2.2.1)

/-! ## What the outputs hold after each point -/

/-- The five output buffers' contents after the body at position `n`. -/
def outsAt0 (c : Dev nD) : (n : ℕ) → n < cfg0.N → Vec F S1x256x256 .f32 × Vec F S1x256x256 .f32 × Vec F S1x256x256 .f32 × Vec F S1x256x1 .f32 × Vec F S1x256x1 .f32
  | 0, hn =>
      (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- At the first chunk of a half: the resetting case's contents. -/
theorem outsAt0_A (c : Dev nD) (t : Fin cfg0.N) (h0 : t.val % 8 = 0) :
    outsAt0 m c t.val t.isLt =
      (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t)) := by
  obtain ⟨n, hn⟩ := t
  cases n with
  | zero => exact rfl
  | succ n => exact (dif_pos h0).trans rfl

/-- At a later chunk: the accumulating case's contents, over what the point before left. -/
theorem outsAt0_B (c : Dev nD) (t : Fin cfg0.N) (h0 : ¬t.val % 8 = 0) :
    outsAt0 m c t.val t.isLt =
      (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and each
    output's at `outsAt0`'s component; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later chunk of a half, output window 2's current buffer holds what the body left at the point before: it was
    not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later chunk of a half, output window 3's current buffer holds what the body left at the point before: it was
    not written back between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later chunk of a half, output window 4's current buffer holds what the body left at the point before: it was
    not written back between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later chunk of a half, output window 5's current buffer holds what the body left at the point before: it was
    not written back between. -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]
/-- At a later chunk of a half, output window 6's current buffer holds what the body left at the point before: it was
    not written back between. -/
theorem before0_6_B (c : Dev nD) (t : Fin cfg0.N) (h0 : ¬t.val % 8 = 0) (d) :
    (dats m 0 c).before 6 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The body at any point: the inputs' buffers hold their blocks; the closed form says which case the point is in; in
    the accumulating case each output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 16 := lt_of_lt_of_eq t.isLt (show cfg0.N = 16 from N_0)
  by_cases h0 : t.val % 8 = 0
  · rw [outsAt0_A m c t h0]
    dsimp only
    unfold out0_A_2 out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _)
  · rw [outsAt0_B m c t h0]
    dsimp only
    simp only [before0_2_B m c t h0, before0_3_B m c t h0, before0_4_B m c t h0, before0_5_B m c t h0, before0_6_B m c t h0]
    unfold out0_B_2 out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates; in every final state each array of the region holds what the
    library reads off the proof data, and every other unscoped buffer what the eighty-one later lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KiKit.lean ====
/-
  The launch side of `KernelIdeal`'s run, for any float instance: the buffer contents the kernel region is
  entered with (after the two reshapes of the arguments into [256, 100352]), the program cut as "two host lines, the
  region, eighty-one host lines", the facts the later lines owe the launch (they touch unscoped buffers only, allocate
  nothing, and write none of the seven arrays the region stages), each window's block at a grid point, the one branch
  condition of the body (second grid coordinate zero: the first chunk of a half) decided over the sixteen points, and
  the frame claim's postcondition read off a run that names every array after the region.
-/
import proofs.«125071_j71829033058812_1_alg».proof.Proof.Gen.KernelIdeal.Launch
import proofs.«125071_j71829033058812_1_alg».proof.Proof.Gen.KernelIdeal.Skeleton
import proofs.«125071_j71829033058812_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 8000000 in
/-- @main is the two reshapes, the region, and the region continued by the eighty-one later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only: with nothing prefetched these are the arrays and the
    buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 8000000 in
/-- No later line writes array `w` of the region: each writes its own result buffer, which is none of the seven. -/
theorem hostOps1_keeps (w : Fin 7) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (hostOps1_keeps w)) op hop

/-- No host line before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later line writes the first argument either: after them it holds its launch contents. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second input's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run that names the arrays -/

/-- Neither argument is an array the region stages, so each is read at the post's second clause: what the later lines
    leave in it, which is what it held at launch. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c))⟩) h

/-! ## The body's branch condition -/

/-- The body's one `scf.if`: the second grid coordinate is zero. -/
abbrev cond0_0 (i : grid0.Coords) : Prop := (Scalar.cmpi .ne (Scalar.extui (Scalar.cmpi .eq (BitVec.ofNat 32 (i 1).val) 0#32)) 0#32) = 1#1
/-- It holds at the points that are multiples of eight: the first chunk of each half. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs at a point -/

/-- One staging buffer of each output window, through which its contents are stated. -/
abbrev VO0_2 : View sig .tc .vmem S1x256x256 .f32 := (Memref.whole cc0_stg2_0 : Memref sig .tc .vmem S1x256x256 .f32).view
abbrev VO0_3 : View sig .tc .vmem S1x256x256 .f32 := (Memref.whole cc0_stg3_0 : Memref sig .tc .vmem S1x256x256 .f32).view
abbrev VO0_4 : View sig .tc .vmem S1x256x256 .f32 := (Memref.whole cc0_stg4_0 : Memref sig .tc .vmem S1x256x256 .f32).view
abbrev VO0_5 : View sig .tc .vmem S1x256x1 .f32 := (Memref.whole cc0_stg5_0 : Memref sig .tc .vmem S1x256x1 .f32).view
abbrev VO0_6 : View sig .tc .vmem S1x256x1 .f32 := (Memref.whole cc0_stg6_0 : Memref sig .tc .vmem S1x256x1 .f32).view
/-- Each window's current staging memref at point `t`, as the pipeline passes it, and its wholeness. -/
abbrev ms0_0 (t : Fin cfg0.N) : Memref sig .tc .vmem S256x6272 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6272 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1 .f32 := win0_6.stage (cfg0.slots t 6)
abbrev hs0_6 (t : Fin cfg0.N) : (ms0_6 t).IsWhole := hstage0_6 ((cfg0.slots t 6).cast nbuf0_6)

end Cert.KernelIdeal.Fr

end
-- ==== Proof.KiRunA.lean ====
/-
  The kernel body run whole at a grid point whose second coordinate is zero (the first chunk of a half), on any whole
  staging memrefs: the five output buffers, holding anything, are first stored zero over their whole extent, then
  each is read back and stored again with the chunk's contribution added. What the stores leave in each output buffer
  is a list of pieces the symbolic run finds; the two input buffers end as they were.
-/
import proofs.«125071_j71829033058812_1_alg».proof.Proof.KiKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the resetting case: from the inputs at `x0`, `x1` and the outputs at anything, it runs to any
    continuation that takes the inputs back unchanged and each output with its pieces written. -/
noncomputable def kernelRun0_A (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    Σ' (L2 : List (View.Piece (Elt F) S1x256x256 .f32)) (L3 : List (View.Piece (Elt F) S1x256x256 .f32)) (L4 : List (View.Piece (Elt F) S1x256x256 .f32)) (L5 : List (View.Piece (Elt F) S1x256x1 .f32)), { L6 : List (View.Piece (Elt F) S1x256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Fr

end
-- ==== Proof.KiRunB.lean ====
/-
  The kernel body run whole at a grid point whose second coordinate is not zero (a later chunk of a half), on any
  whole staging memrefs: each of the five output buffers holds a running value, is read, and is stored again with the
  chunk's contribution added. What the stores leave in each output buffer is a list of pieces the symbolic run finds;
  the two input buffers end as they were.
-/
import proofs.«125071_j71829033058812_1_alg».proof.Proof.KiRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in the accumulating case: from the inputs at `x0`, `x1` and the outputs at their running contents
    `xo2 … xo6`, it runs to any continuation that takes the inputs back unchanged and each output with its pieces
    written. -/
noncomputable def kernelRun0_B (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32)
    (xo2 : Vec F S1x256x256 .f32) (xo3 : Vec F S1x256x256 .f32) (xo4 : Vec F S1x256x256 .f32) (xo5 : Vec F S1x256x1 .f32) (xo6 : Vec F S1x256x1 .f32) :
    Σ' (L2 : List (View.Piece (Elt F) S1x256x256 .f32)) (L3 : List (View.Piece (Elt F) S1x256x256 .f32)) (L4 : List (View.Piece (Elt F) S1x256x256 .f32)) (L5 : List (View.Piece (Elt F) S1x256x1 .f32)), { L6 : List (View.Piece (Elt F) S1x256x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ owns (c : Thread nD τ) arg7 fullShare xo5 ∗ owns (c : Thread nD τ) arg8 fullShare xo6
            ∗ (iprop(owns (c : Thread nD τ) arg2 fullShare x0 ∗ owns (c : Thread nD τ) arg3 fullShare x1
              ∗ (∃ f, arg4.view.loc (c : Thread nD τ) ↦[arg4.view.set]{fullShare} arg4.view.writes (Elt F) f L2)
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Fr

end
-- ==== Proof.KiFrame.lean ====
/-
  The frame of `KernelIdeal`, for any float instance. Per case of the body's one branch, what each of the five
  output buffers holds after the body (the stored pieces read back); point by point over the sixteen grid points, what
  they hold after point `n`: at a multiple of eight the resetting case's contents, elsewhere the accumulating case's
  over what the point before left (an output block is written back only at the last chunk of a half, so between two
  chunks of one half the buffer keeps the running value). From these the pipeline's proof data, the body's obligation
  at a generic point, the run of @main with every array after the region named, and the frame claim.
-/
import proofs.«125071_j71829033058812_1_alg».proof.Proof.KiRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the resetting case the pieces stored into output window 2's buffer tile it, so they cover it. -/
theorem cover0_A_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x256.Idx) :
    ∃ pc ∈ (kernelRun0_A c i arg2 harg2 arg3 harg3 arg4 harg4 arg5 harg5 arg6 harg6 arg7 harg7 arg8 harg8 hc0 x0 x1).1, y ∈ pc.1.set :=
  View.cover_of_tiledL (kernelRun0_A c i arg2 harg2 arg3 harg3 arg4 harg4 arg5 harg5 arg6 harg6 arg7 harg7 arg8 harg8 hc0 x0 x1).1 S1x256x256.size (by sl_kernel_rfl) y

/-- What the resetting case leaves in output window 2's buffer: its pieces read back. -/
def out0_A_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x256 .f32 :=
  VO0_2.read (Elt F) (VO0_2.writes (Elt F) VO0_2.junk (kernelRun0_A c i arg2 harg2 arg3 harg3 arg4 harg4 arg5 harg5 arg6 harg6 arg7 harg7 arg8 harg8 hc0 x0 x1).1)

/-- In the accumulating case the pieces stored into output window 2's buffer tile it, so they cover it. -/
theorem cover0_B_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).1 S1x256x256.size (by sl_kernel_rfl) y

/-- What the accumulating case leaves in output window 2's buffer: its pieces read back. -/
def out0_B_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x256 .f32 :=
  VO0_2.read (Elt F) (VO0_2.writes (Elt F) VO0_2.junk (kernelRun0_B c i arg2 harg2 arg3 harg3 arg4 harg4 arg5 harg5 arg6 harg6 arg7 harg7 arg8 harg8 hc0 x0 x1 xo2 xo3 xo4 xo5 xo6).1)

/-- In the resetting case the pieces stored into output window 3's buffer tile it, so they cover it. -/
theorem cover0_A_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x256.Idx) :
    ∃ pc ∈ (kernelRun0_A c i arg2 harg2 arg3 harg3 arg4 harg4 arg5 harg5 arg6 harg6 arg7 harg7 arg8 harg8 hc0 x0 x1).2.1, y ∈ pc.1.set :=
  View.cover_of_tiledL (kernelRun0_A c i arg2 harg2 arg3 harg3 arg4 harg4 arg5 harg5 arg6 harg6 arg7 harg7 arg8 harg8 hc0 x0 x1).2.1 S1x256x256.size (by sl_kernel_rfl) y

/-- What the resetting case leaves in output window 3's buffer: its pieces read back. -/
def out0_A_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x256 .f32 :=
  VO0_3.read (Elt F) (VO0_3.writes (Elt F) VO0_3.junk (kernelRun0_A c i arg2 harg2 arg3 harg3 arg4 harg4 arg5 harg5 arg6 harg6 arg7 harg7 arg8 harg8 hc0 x0 x1).2.1)

/-- In the accumulating case the pieces stored into output window 3's buffer tile it, so they cover it. -/
theorem cover0_B_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.1 S1x256x256.size (by sl_kernel_rfl) y

/-- What the accumulating case leaves in output window 3's buffer: its pieces read back. -/
def out0_B_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x256 .f32 :=
  VO0_3.read (Elt F) (VO0_3.writes (Elt F) VO0_3.junk (kernelRun0_B c i arg2 harg2 arg3 harg3 arg4 harg4 arg5 harg5 arg6 harg6 arg7 harg7 arg8 harg8 hc0 x0 x1 xo2 xo3 xo4 xo5 xo6).2.1)

/-- In the resetting case the pieces stored into output window 4's buffer tile it, so they cover it. -/
theorem cover0_A_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x256.Idx) :
    ∃ pc ∈ (kernelRun0_A c i arg2 harg2 arg3 harg3 arg4 harg4 arg5 harg5 arg6 harg6 arg7 harg7 arg8 harg8 hc0 x0 x1).2.2.1, y ∈ pc.1.set :=
  View.cover_of_tiledL (kernelRun0_A c i arg2 harg2 arg3 harg3 arg4 harg4 arg5 harg5 arg6 harg6 arg7 harg7 arg8 harg8 hc0 x0 x1).2.2.1 S1x256x256.size (by sl_kernel_rfl) y

/-- What the resetting case leaves in output window 4's buffer: its pieces read back. -/
def out0_A_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x256 .f32 :=
  VO0_4.read (Elt F) (VO0_4.writes (Elt F) VO0_4.junk (kernelRun0_A c i arg2 harg2 arg3 harg3 arg4 harg4 arg5 harg5 arg6 harg6 arg7 harg7 arg8 harg8 hc0 x0 x1).2.2.1)

/-- In the accumulating case the pieces stored into output window 4's buffer tile it, so they cover it. -/
theorem cover0_B_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.1 S1x256x256.size (by sl_kernel_rfl) y

/-- What the accumulating case leaves in output window 4's buffer: its pieces read back. -/
def out0_B_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x256 .f32 :=
  VO0_4.read (Elt F) (VO0_4.writes (Elt F) VO0_4.junk (kernelRun0_B c i arg2 harg2 arg3 harg3 arg4 harg4 arg5 harg5 arg6 harg6 arg7 harg7 arg8 harg8 hc0 x0 x1 xo2 xo3 xo4 xo5 xo6).2.2.1)

/-- In the resetting case the pieces stored into output window 5's buffer tile it, so they cover it. -/
theorem cover0_A_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x1.Idx) :
    ∃ pc ∈ (kernelRun0_A c i arg2 harg2 arg3 harg3 arg4 harg4 arg5 harg5 arg6 harg6 arg7 harg7 arg8 harg8 hc0 x0 x1).2.2.2.1, y ∈ pc.1.set :=
  View.cover_of_tiledL (kernelRun0_A c i arg2 harg2 arg3 harg3 arg4 harg4 arg5 harg5 arg6 harg6 arg7 harg7 arg8 harg8 hc0 x0 x1).2.2.2.1 S1x256x1.size (by sl_kernel_rfl) y

/-- What the resetting case leaves in output window 5's buffer: its pieces read back. -/
def out0_A_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x1 .f32 :=
  VO0_5.read (Elt F) (VO0_5.writes (Elt F) VO0_5.junk (kernelRun0_A c i arg2 harg2 arg3 harg3 arg4 harg4 arg5 harg5 arg6 harg6 arg7 harg7 arg8 harg8 hc0 x0 x1).2.2.2.1)

/-- In the accumulating case the pieces stored into output window 5's buffer tile it, so they cover it. -/
theorem cover0_B_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x1.Idx) :
    ∃ pc ∈ (kernelRun0_B c i arg2 harg2 arg3 harg3 arg4 harg4 arg5 harg5 arg6 harg6 arg7 harg7 arg8 harg8 hc0 x0 x1 xo2 xo3 xo4 xo5 xo6).2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.1 S1x256x1.size (by sl_kernel_rfl) y

/-- What the accumulating case leaves in output window 5's buffer: its pieces read back. -/
def out0_B_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x1 .f32 :=
  VO0_5.read (Elt F) (VO0_5.writes (Elt F) VO0_5.junk (kernelRun0_B c i arg2 harg2 arg3 harg3 arg4 harg4 arg5 harg5 arg6 harg6 arg7 harg7 arg8 harg8 hc0 x0 x1 xo2 xo3 xo4 xo5 xo6).2.2.2.1)

/-- In the resetting case the pieces stored into output window 6's buffer tile it, so they cover it. -/
theorem cover0_A_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) (y : S1x256x1.Idx) :
    ∃ pc ∈ (kernelRun0_A c i arg2 harg2 arg3 harg3 arg4 harg4 arg5 harg5 arg6 harg6 arg7 harg7 arg8 harg8 hc0 x0 x1).2.2.2.2.1, y ∈ pc.1.set :=
  View.cover_of_tiledL (kernelRun0_A c i arg2 harg2 arg3 harg3 arg4 harg4 arg5 harg5 arg6 harg6 arg7 harg7 arg8 harg8 hc0 x0 x1).2.2.2.2.1 S1x256x1.size (by sl_kernel_rfl) y

/-- What the resetting case leaves in output window 6's buffer: its pieces read back. -/
def out0_A_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) : Vec F S1x256x1 .f32 :=
  VO0_6.read (Elt F) (VO0_6.writes (Elt F) VO0_6.junk (kernelRun0_A c i arg2 harg2 arg3 harg3 arg4 harg4 arg5 harg5 arg6 harg6 arg7 harg7 arg8 harg8 hc0 x0 x1).2.2.2.2.1)

/-- In the accumulating case the pieces stored into output window 6's buffer tile it, so they cover it. -/
theorem cover0_B_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) (y : S1x256x1.Idx) :
    ∃ pc ∈ (kernelRun0_B c i arg2 harg2 arg3 harg3 arg4 harg4 arg5 harg5 arg6 harg6 arg7 harg7 arg8 harg8 hc0 x0 x1 xo2 xo3 xo4 xo5 xo6).2.2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.2.1 S1x256x1.size (by sl_kernel_rfl) y

/-- What the accumulating case leaves in output window 6's buffer: its pieces read back. -/
def out0_B_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) : Vec F S1x256x1 .f32 :=
  VO0_6.read (Elt F) (VO0_6.writes (Elt F) VO0_6.junk (kernelRun0_B c i arg2 harg2 arg3 harg3 arg4 harg4 arg5 harg5 arg6 harg6 arg7 harg7 arg8 harg8 hc0 x0 x1 xo2 xo3 xo4 xo5 xo6).2.2.2.2.1)

/-! ## What the outputs hold after each point -/

/-- The five output buffers' contents after the body at position `n`. -/
def outsAt0 (c : Dev nD) : (n : ℕ) → n < cfg0.N → Vec F S1x256x256 .f32 × Vec F S1x256x256 .f32 × Vec F S1x256x256 .f32 × Vec F S1x256x1 .f32 × Vec F S1x256x1 .f32
  | 0, hn =>
      (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- At the first chunk of a half: the resetting case's contents. -/
theorem outsAt0_A (c : Dev nD) (t : Fin cfg0.N) (h0 : t.val % 8 = 0) :
    outsAt0 m c t.val t.isLt =
      (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t)) := by
  obtain ⟨n, hn⟩ := t
  cases n with
  | zero => exact rfl
  | succ n => exact (dif_pos h0).trans rfl

/-- At a later chunk: the accumulating case's contents, over what the point before left. -/
theorem outsAt0_B (c : Dev nD) (t : Fin cfg0.N) (h0 : ¬t.val % 8 = 0) :
    outsAt0 m c t.val t.isLt =
      (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and each
    output's at `outsAt0`'s component; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later chunk of a half, output window 2's current buffer holds what the body left at the point before: it was
    not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later chunk of a half, output window 3's current buffer holds what the body left at the point before: it was
    not written back between. -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later chunk of a half, output window 4's current buffer holds what the body left at the point before: it was
    not written back between. -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later chunk of a half, output window 5's current buffer holds what the body left at the point before: it was
    not written back between. -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]
/-- At a later chunk of a half, output window 6's current buffer holds what the body left at the point before: it was
    not written back between. -/
theorem before0_6_B (c : Dev nD) (t : Fin cfg0.N) (h0 : ¬t.val % 8 = 0) (d) :
    (dats m 0 c).before 6 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The body at any point: the inputs' buffers hold their blocks; the closed form says which case the point is in; in
    the accumulating case each output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 16 := lt_of_lt_of_eq t.isLt (show cfg0.N = 16 from N_0)
  by_cases h0 : t.val % 8 = 0
  · rw [outsAt0_A m c t h0]
    dsimp only
    unfold out0_A_2 out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _)
  · rw [outsAt0_B m c t h0]
    dsimp only
    simp only [before0_2_B m c t h0, before0_3_B m c t h0, before0_4_B m c t h0, before0_5_B m c t h0, before0_6_B m c t h0]
    unfold out0_B_2 out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates; in every final state each array of the region holds what the
    library reads off the proof data, and every other unscoped buffer what the eighty-one later lines leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KiPieces.lean ====
/-
  What the resetting case of the body leaves in each output buffer, as a value: the stored pieces, read back, are the
  body's last store's value, whose loads read whole buffers. The buffer was first stored zero, so that value is the
  update applied to the zero block.
-/
import proofs.«125071_j71829033058812_1_alg».proof.Proof.KiFrame
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The zero offsets of a whole-buffer rectangle, at rank 3 (the output buffers) and rank 2 (the input buffers). -/
private theorem hz3 : (![0, 0, 0] : Fin 3 → Nat) = fun _ => 0 := funext fun a => by fin_cases a <;> rfl
private theorem hz2 : (![0, 0] : Fin 2 → Nat) = fun _ => 0 := funext fun a => by fin_cases a <;> rfl

theorem pieceA_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    out0_A_2 c i arg2 harg2 arg3 harg3 arg4 harg4 arg5 harg5 arg6 harg6 arg7 harg7 arg8 harg8 hc0 x0 x1 = k0_pay1 (k0_pay15 (k0_pay4 (F := F))) (k0_pay16 x0) := by
  unfold out0_A_2
  rw [View.read_writes_eq_canon _ _ _ (cover0_A_2 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x256) hz3, View.readCov_unit_zero (S := S1x256x256) _ hz3]
  simp only [View.readAt_eq_ld, harg2.read_unread, View.ld_unit_zero (S := S256x6272) hz2]

theorem pieceA_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    out0_A_3 c i arg2 harg2 arg3 harg3 arg4 harg4 arg5 harg5 arg6 harg6 arg7 harg7 arg8 harg8 hc0 x0 x1 = k0_pay2 (k0_pay14 x1) (k0_pay5 (F := F)) := by
  unfold out0_A_3
  rw [View.read_writes_eq_canon _ _ _ (cover0_A_3 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x256) hz3, View.readCov_unit_zero (S := S1x256x256) _ hz3]
  simp only [View.readAt_eq_ld, harg3.read_unread, View.ld_unit_zero (S := S256x6272) hz2]

theorem pieceA_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    out0_A_4 c i arg2 harg2 arg3 harg3 arg4 harg4 arg5 harg5 arg6 harg6 arg7 harg7 arg8 harg8 hc0 x0 x1 = k0_pay3 (k0_pay13 x0) (k0_pay14 x1) (k0_pay6 (F := F)) := by
  unfold out0_A_4
  rw [View.read_writes_eq_canon _ _ _ (cover0_A_4 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, View.ld_unit_zero (S := S256x6272) hz2]

theorem pieceA_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    out0_A_5 c i arg2 harg2 arg3 harg3 arg4 harg4 arg5 harg5 arg6 harg6 arg7 harg7 arg8 harg8 hc0 x0 x1 = k0_pay11 x0 (k0_pay7 (F := F)) := by
  unfold out0_A_5
  rw [View.read_writes_eq_canon _ _ _ (cover0_A_5 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x1) hz3, View.readCov_unit_zero (S := S1x256x1) _ hz3]
  simp only [View.readAt_eq_ld, harg2.read_unread, View.ld_unit_zero (S := S256x6272) hz2]

theorem pieceA_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : cond0_0 i)
    (x0 : Vec F S256x6272 .f32) (x1 : Vec F S256x6272 .f32) :
    out0_A_6 c i arg2 harg2 arg3 harg3 arg4 harg4 arg5 harg5 arg6 harg6 arg7 harg7 arg8 harg8 hc0 x0 x1 = k0_pay12 x1 (k0_pay8 (F := F)) := by
  unfold out0_A_6
  rw [View.read_writes_eq_canon _ _ _ (cover0_A_6 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x1) hz3, View.readCov_unit_zero (S := S1x256x1) _ hz3]
  simp only [View.readAt_eq_ld, harg3.read_unread, View.ld_unit_zero (S := S256x6272) hz2]

end Cert.KernelIdeal.Val

end
-- ==== Proof.KiPiecesB.lean ====
/-
  What each case of the body leaves in each output buffer, as a value: the stored pieces, read back, are the body's
  last store's value, whose loads read whole buffers. Here the accumulating case: the update applied to the buffer's running contents.
-/
import proofs.«125071_j71829033058812_1_alg».proof.Proof.KiFrame
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The all-zero offsets of a rank-3 and of a rank-2 block, as constant functions. -/
private theorem hz3 : (![0, 0, 0] : Fin 3 → Nat) = fun _ => 0 := funext fun a => by fin_cases a <;> rfl
private theorem hz2 : (![0, 0] : Fin 2 → Nat) = fun _ => 0 := funext fun a => by fin_cases a <;> rfl

theorem pieceB_2 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) :
    out0_B_2 c i arg2 harg2 arg3 harg3 arg4 harg4 arg5 harg5 arg6 harg6 arg7 harg7 arg8 harg8 hc0 x0 x1 xo2 xo3 xo4 xo5 xo6 = k0_pay1 (k0_pay15 xo2) (k0_pay16 x0) := by
  unfold out0_B_2
  rw [View.read_writes_eq_canon _ _ _ (cover0_B_2 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S1x256x256) hz3,
    View.ld_unit_zero (S := S256x6272) hz2]

theorem pieceB_3 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) :
    out0_B_3 c i arg2 harg2 arg3 harg3 arg4 harg4 arg5 harg5 arg6 harg6 arg7 harg7 arg8 harg8 hc0 x0 x1 xo2 xo3 xo4 xo5 xo6 = k0_pay2 (k0_pay14 x1) xo3 := by
  unfold out0_B_3
  rw [View.read_writes_eq_canon _ _ _ (cover0_B_3 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S1x256x256) hz3,
    View.ld_unit_zero (S := S256x6272) hz2]

theorem pieceB_4 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) :
    out0_B_4 c i arg2 harg2 arg3 harg3 arg4 harg4 arg5 harg5 arg6 harg6 arg7 harg7 arg8 harg8 hc0 x0 x1 xo2 xo3 xo4 xo5 xo6 = k0_pay3 (k0_pay13 x0) (k0_pay14 x1) xo4 := by
  unfold out0_B_4
  rw [View.read_writes_eq_canon _ _ _ (cover0_B_4 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S1x256x256) hz3,
    View.ld_unit_zero (S := S256x6272) hz2]

theorem pieceB_5 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) :
    out0_B_5 c i arg2 harg2 arg3 harg3 arg4 harg4 arg5 harg5 arg6 harg6 arg7 harg7 arg8 harg8 hc0 x0 x1 xo2 xo3 xo4 xo5 xo6 = k0_pay11 x0 xo5 := by
  unfold out0_B_5
  rw [View.read_writes_eq_canon _ _ _ (cover0_B_5 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S1x256x1) hz3,
    View.ld_unit_zero (S := S256x6272) hz2]

theorem pieceB_6 (c : Dev nD) (i : grid0.Coords) (arg2 : Memref sig .tc .vmem S256x6272 .f32) (harg2 : arg2.IsWhole) (arg3 : Memref sig .tc .vmem S256x6272 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x1 .f32) (harg7 : arg7.IsWhole) (arg8 : Memref sig .tc .vmem S1x256x1 .f32) (harg8 : arg8.IsWhole) (hc0 : ¬cond0_0 i)
    (x0 : Vec F S256x6272 .f32) (x1 : Vec F S256x6272 .f32) (xo2 : Vec F S1x256x256 .f32) (xo3 : Vec F S1x256x256 .f32) (xo4 : Vec F S1x256x256 .f32) (xo5 : Vec F S1x256x1 .f32) (xo6 : Vec F S1x256x1 .f32) :
    out0_B_6 c i arg2 harg2 arg3 harg3 arg4 harg4 arg5 harg5 arg6 harg6 arg7 harg7 arg8 harg8 hc0 x0 x1 xo2 xo3 xo4 xo5 xo6 = k0_pay12 x1 xo6 := by
  unfold out0_B_6
  rw [View.read_writes_eq_canon _ _ _ (cover0_B_6 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, View.ld_unit_zero (S := S1x256x1) hz3,
    View.ld_unit_zero (S := S256x6272) hz2]

end Cert.KernelIdeal.Val

end
-- ==== Proof.KiPayIdx.lean ====
/-
  The kernel body's stored values read at an index, over the extended reals: a Gram update is the buffer's entry
  plus the chunk's dot product of two rows (a change of float format is the identity, a matrix product into zero
  against a transposed operand is a sum of products over the 6272 columns of the chunk); a sum-of-squares update is the
  buffer's entry plus the row's sum of squares over the chunk; the reset values are zero.
-/
import proofs.«125071_j71829033058812_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Cert.KernelIdeal.Facts₀ Idealize.ShloMosaic Idealize.ShloMosaic.ValueIdx

/-! ## Layout operations of the body read at coordinates -/

/-- A vector `[a]` cast to a column `[a, 1]` reads, at `(i, u)`, the operand at `i`: both positions in row-major
    order are `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The chunk as the body reads it (a cast to its own shape) is the chunk. -/
private theorem pay9_apply (x : Vec Ideal S256x6272 .f32) (i : S256x6272.Idx) : k0_pay9 (F := Ideal) x i = x i := by
  unfold k0_pay9
  exact congrFun (shapeCast_self x Gen.shapeCasts_S256x6272_S256x6272) i

private theorem pay10_apply (x : Vec Ideal S256x6272 .f32) (i : S256x6272.Idx) : k0_pay10 (F := Ideal) x i = x i := by
  unfold k0_pay10
  exact congrFun (shapeCast_self x Gen.shapeCasts_S256x6272_S256x6272) i

/-- The narrowed chunk is the chunk: a change of float format is the identity on extended reals. -/
private theorem pay13_apply (x : Vec Ideal S256x6272 .f32) (i : S256x6272.Idx) : k0_pay13 (F := Ideal) x i = x i := by
  unfold k0_pay13
  exact pay9_apply x i

private theorem pay14_apply (x : Vec Ideal S256x6272 .f32) (i : S256x6272.Idx) : k0_pay14 (F := Ideal) x i = x i := by
  unfold k0_pay14
  exact pay10_apply x i

/-- The running Gram block viewed as a matrix reads the block's entry. -/
private theorem pay15_apply (xo : Vec Ideal S1x256x256 .f32) (p q : Fin 256) :
    k0_pay15 (F := Ideal) xo (ix2 p q) = xo (ix3 (0 : Fin 1) p q) := by
  unfold k0_pay15
  exact shapeCast_1ab_ab_apply xo Gen.shapeCasts_S1x256x256_S256x256 p q

/-! ## The matrix product against a transposed operand -/

private theorem lhs_gram_0 (i : S256x256.Idx) (k : dot_S256x6272_S6272x256_S256x256_1_0_0_1_n_n.contr.Idx) :
    (dot_S256x6272_S6272x256_S256x256_1_0_0_1_n_n.lhsIdx i k 0).val = (i 0).val := by
  unfold DotDims.lhsIdx
  rw [dif_neg (show ¬(0 : Fin S256x6272.rank) ∈ dot_S256x6272_S6272x256_S256x256_1_0_0_1_n_n.lhsBatch by decide), dif_pos (show (0 : Fin S256x6272.rank) ∈ dot_S256x6272_S6272x256_S256x256_1_0_0_1_n_n.lhsNonContracting by decide)]
  rfl
private theorem lhs_gram_1 (i : S256x256.Idx) (k : dot_S256x6272_S6272x256_S256x256_1_0_0_1_n_n.contr.Idx) :
    (dot_S256x6272_S6272x256_S256x256_1_0_0_1_n_n.lhsIdx i k 1).val = (k ⟨0, by decide⟩).val :=
  dot_S256x6272_S6272x256_S256x256_1_0_0_1_n_n.lhsIdx_val_of_single rfl i k
private theorem rhs_gram_0 (i : S256x256.Idx) (k : dot_S256x6272_S6272x256_S256x256_1_0_0_1_n_n.contr.Idx) :
    (dot_S256x6272_S6272x256_S256x256_1_0_0_1_n_n.rhsIdx i k 0).val = (k ⟨0, by decide⟩).val :=
  dot_S256x6272_S6272x256_S256x256_1_0_0_1_n_n.rhsIdx_val_of_single rfl i k
private theorem rhs_gram_1 (i : S256x256.Idx) (k : dot_S256x6272_S6272x256_S256x256_1_0_0_1_n_n.contr.Idx) :
    (dot_S256x6272_S6272x256_S256x256_1_0_0_1_n_n.rhsIdx i k 1).val = (i 1).val := by
  unfold DotDims.rhsIdx
  rw [dif_neg (show ¬(1 : Fin S6272x256.rank) ∈ dot_S256x6272_S6272x256_S256x256_1_0_0_1_n_n.rhsBatch by decide), dif_pos (show (1 : Fin S6272x256.rank) ∈ dot_S256x6272_S6272x256_S256x256_1_0_0_1_n_n.rhsNonContracting by decide)]
  rfl

/-- The product of `A` with the transpose of `B` into zero reads, at `(p, q)`, the dot product of row `p` of `A` and
    row `q` of `B`: the contraction's one axis is re-indexed by its coordinate, and the transposed operand at
    `(l, q)` is `B` at `(q, l)`. -/
private theorem matmulT_apply (A B : FVec Ideal S256x6272 .bf16) (p q : Fin 256) :
    matmul dot_S256x6272_S6272x256_S256x256_1_0_0_1_n_n none A
        (transpose S6272x256 [1, 0] B Gen.transposes_S256x6272_p1_0_S6272x256) (constant (F := Ideal) S256x256 .f32 0x00000000#32) (ix2 p q)
      = ∑ l : Fin 6272, A (ix2 p l) * B (ix2 q l) := by
  generalize hT : transpose S6272x256 [1, 0] B Gen.transposes_S256x6272_p1_0_S6272x256 = Bt
  simp only [matmul]
  rw [Ideal.matmul_constant_zero_apply, ← Equiv.sum_comp (ValueIdx.contrEquiv1 dot_S256x6272_S6272x256_S256x256_1_0_0_1_n_n 6272 rfl rfl).symm]
  refine Finset.sum_congr rfl fun k _ => ?_
  have hk := ValueIdx.contrEquiv1_symm_val dot_S256x6272_S6272x256_S256x256_1_0_0_1_n_n 6272 rfl rfl k
  have el : dot_S256x6272_S6272x256_S256x256_1_0_0_1_n_n.lhsIdx (ix2 p q) ((ValueIdx.contrEquiv1 dot_S256x6272_S6272x256_S256x256_1_0_0_1_n_n 6272 rfl rfl).symm k) = ix2 p k := funext fun a => Fin.ext (by
    match a with
    | ⟨0, _⟩ => exact lhs_gram_0 _ _
    | ⟨1, _⟩ => exact (lhs_gram_1 _ _).trans hk)
  have er : dot_S256x6272_S6272x256_S256x256_1_0_0_1_n_n.rhsIdx (ix2 p q) ((ValueIdx.contrEquiv1 dot_S256x6272_S6272x256_S256x256_1_0_0_1_n_n 6272 rfl rfl).symm k) = ix2 k q := funext fun a => Fin.ext (by
    match a with
    | ⟨0, _⟩ => exact (rhs_gram_0 _ _).trans hk
    | ⟨1, _⟩ => exact rhs_gram_1 _ _)
  rw [el, er, ← hT]
  exact congrArg (A (ix2 p k) * ·) (transpose_ix2_apply B Gen.transposes_S256x6272_p1_0_S6272x256 k q)

/-! ## The lane sum -/

/-- The sum over the columns of a `[256, 6272]` vector, cast to a column, reads at `(p, 0)` the sum of row `p`. -/
private theorem rowSum_apply (v : FVec Ideal S256x6272 .f32)
    (hacc : (0x00000000#32 : BitVec 32) = 0x00000000#32) (p : Fin 256) (u : Fin 1) :
    shapeCast S256x1 (multiReduction (F := Ideal) .add [1] S256 v 0x00000000#32 Gen.reduces_S256x6272_S256 (.inl rfl) hacc)
        Gen.shapeCasts_S256_S256x1 (ix2 p u)
      = ∑ l : Fin 6272, v (ix2 p l) := by
  refine (shapeCast_a_a1_apply _ Gen.shapeCasts_S256_S256x1 p u).trans ?_
  refine (Ideal.multiReduction_add_single v 0x00000000#32 Gen.reduces_S256x6272_S256 (.inl rfl) hacc (ix1 p)).trans ?_
  refine Finset.sum_congr rfl fun l _ => ?_
  exact congrArg v (funext fun a => Fin.ext (by match a with | ⟨0, _⟩ => rfl | ⟨1, _⟩ => rfl))

/-! ## The stored values -/

/-- The reset values are zero everywhere. -/
theorem pay4_apply (j : S1x256x256.Idx) : k0_pay4 (F := Ideal) j = 0 := by
  obtain ⟨u, p, q, rfl⟩ : ∃ (u : Fin 1) (p q : Fin 256), j = ix3 u p q := ⟨j 0, j 1, j 2, eq_ix3 j⟩
  unfold k0_pay4
  refine (shapeCast_ab_1ab_apply _ Gen.shapeCasts_S256x256_S1x256x256 u p q).trans ?_
  exact Ideal.ofBits_zero_f32
theorem pay5_apply (j : S1x256x256.Idx) : k0_pay5 (F := Ideal) j = 0 := by
  obtain ⟨u, p, q, rfl⟩ : ∃ (u : Fin 1) (p q : Fin 256), j = ix3 u p q := ⟨j 0, j 1, j 2, eq_ix3 j⟩
  unfold k0_pay5
  refine (shapeCast_ab_1ab_apply _ Gen.shapeCasts_S256x256_S1x256x256 u p q).trans ?_
  exact Ideal.ofBits_zero_f32
theorem pay6_apply (j : S1x256x256.Idx) : k0_pay6 (F := Ideal) j = 0 := by
  obtain ⟨u, p, q, rfl⟩ : ∃ (u : Fin 1) (p q : Fin 256), j = ix3 u p q := ⟨j 0, j 1, j 2, eq_ix3 j⟩
  unfold k0_pay6
  refine (shapeCast_ab_1ab_apply _ Gen.shapeCasts_S256x256_S1x256x256 u p q).trans ?_
  exact Ideal.ofBits_zero_f32
theorem pay7_apply (j : S1x256x1.Idx) : k0_pay7 (F := Ideal) j = 0 := by
  obtain ⟨u, p, q, rfl⟩ : ∃ (u : Fin 1) (p : Fin 256) (q : Fin 1), j = ix3 u p q := ⟨j 0, j 1, j 2, eq_ix3 j⟩
  unfold k0_pay7
  refine (shapeCast_ab_1ab_apply _ Gen.shapeCasts_S256x1_S1x256x1 u p q).trans ?_
  exact Ideal.ofBits_zero_f32
theorem pay8_apply (j : S1x256x1.Idx) : k0_pay8 (F := Ideal) j = 0 := by
  obtain ⟨u, p, q, rfl⟩ : ∃ (u : Fin 1) (p : Fin 256) (q : Fin 1), j = ix3 u p q := ⟨j 0, j 1, j 2, eq_ix3 j⟩
  unfold k0_pay8
  refine (shapeCast_ab_1ab_apply _ Gen.shapeCasts_S256x1_S1x256x1 u p q).trans ?_
  exact Ideal.ofBits_zero_f32

/-- The first Gram update: the running entry plus the dot product of rows `p` and `q` of the chunk. -/
theorem gram1_apply (x0 : Vec Ideal S256x6272 .f32) (xo : Vec Ideal S1x256x256 .f32) (p q : Fin 256) :
    k0_pay1 (F := Ideal) (k0_pay15 xo) (k0_pay16 x0) (ix3 (0 : Fin 1) p q)
      = xo (ix3 (0 : Fin 1) p q) + ∑ l : Fin 6272, x0 (ix2 p l) * x0 (ix2 q l) := by
  unfold k0_pay1
  refine (shapeCast_ab_1ab_apply _ Gen.shapeCasts_S256x256_S1x256x256 (0 : Fin 1) p q).trans ?_
  refine (addf_apply _ _ (ix2 p q)).trans ?_
  refine congrArg₂ (· + ·) (pay15_apply xo p q) ?_
  unfold k0_pay16
  refine (matmulT_apply (k0_pay13 x0) (k0_pay13 x0) p q).trans ?_
  exact Finset.sum_congr rfl fun l _ => congrArg₂ (· * ·) (pay13_apply x0 _) (pay13_apply x0 _)

/-- The second: rows of the second input against themselves. -/
theorem gram2_apply (x1 : Vec Ideal S256x6272 .f32) (xo : Vec Ideal S1x256x256 .f32) (p q : Fin 256) :
    k0_pay2 (F := Ideal) (k0_pay14 x1) xo (ix3 (0 : Fin 1) p q)
      = xo (ix3 (0 : Fin 1) p q) + ∑ l : Fin 6272, x1 (ix2 p l) * x1 (ix2 q l) := by
  unfold k0_pay2
  refine (shapeCast_ab_1ab_apply _ Gen.shapeCasts_S256x256_S1x256x256 (0 : Fin 1) p q).trans ?_
  refine (addf_apply _ _ (ix2 p q)).trans ?_
  refine congrArg₂ (· + ·) (shapeCast_1ab_ab_apply xo Gen.shapeCasts_S1x256x256_S256x256 p q) ?_
  refine (matmulT_apply (k0_pay14 x1) (k0_pay14 x1) p q).trans ?_
  exact Finset.sum_congr rfl fun l _ => congrArg₂ (· * ·) (pay14_apply x1 _) (pay14_apply x1 _)

/-- The third: rows of the first input against rows of the second. -/
theorem gram3_apply (x0 x1 : Vec Ideal S256x6272 .f32) (xo : Vec Ideal S1x256x256 .f32) (p q : Fin 256) :
    k0_pay3 (F := Ideal) (k0_pay13 x0) (k0_pay14 x1) xo (ix3 (0 : Fin 1) p q)
      = xo (ix3 (0 : Fin 1) p q) + ∑ l : Fin 6272, x0 (ix2 p l) * x1 (ix2 q l) := by
  unfold k0_pay3
  refine (shapeCast_ab_1ab_apply _ Gen.shapeCasts_S256x256_S1x256x256 (0 : Fin 1) p q).trans ?_
  refine (addf_apply _ _ (ix2 p q)).trans ?_
  refine congrArg₂ (· + ·) (shapeCast_1ab_ab_apply xo Gen.shapeCasts_S1x256x256_S256x256 p q) ?_
  refine (matmulT_apply (k0_pay13 x0) (k0_pay14 x1) p q).trans ?_
  exact Finset.sum_congr rfl fun l _ => congrArg₂ (· * ·) (pay13_apply x0 _) (pay14_apply x1 _)

/-- The sum-of-squares updates: the running entry plus the row's sum of squares over the chunk. -/
theorem sq1_apply (x0 : Vec Ideal S256x6272 .f32) (xo : Vec Ideal S1x256x1 .f32) (p : Fin 256) :
    k0_pay11 (F := Ideal) x0 xo (ix3 (0 : Fin 1) p (0 : Fin 1))
      = xo (ix3 (0 : Fin 1) p (0 : Fin 1)) + ∑ l : Fin 6272, x0 (ix2 p l) * x0 (ix2 p l) := by
  unfold k0_pay11
  refine (shapeCast_ab_1ab_apply _ Gen.shapeCasts_S256x1_S1x256x1 (0 : Fin 1) p (0 : Fin 1)).trans ?_
  refine (addf_apply _ _ (ix2 p (0 : Fin 1))).trans ?_
  refine congrArg₂ (· + ·) (shapeCast_1ab_ab_apply xo Gen.shapeCasts_S1x256x1_S256x1 p (0 : Fin 1)) ?_
  refine (rowSum_apply _ rfl p (0 : Fin 1)).trans ?_
  exact Finset.sum_congr rfl fun l _ => congrArg₂ (· * ·) (pay9_apply x0 _) (pay9_apply x0 _)
theorem sq2_apply (x1 : Vec Ideal S256x6272 .f32) (xo : Vec Ideal S1x256x1 .f32) (p : Fin 256) :
    k0_pay12 (F := Ideal) x1 xo (ix3 (0 : Fin 1) p (0 : Fin 1))
      = xo (ix3 (0 : Fin 1) p (0 : Fin 1)) + ∑ l : Fin 6272, x1 (ix2 p l) * x1 (ix2 p l) := by
  unfold k0_pay12
  refine (shapeCast_ab_1ab_apply _ Gen.shapeCasts_S256x1_S1x256x1 (0 : Fin 1) p (0 : Fin 1)).trans ?_
  refine (addf_apply _ _ (ix2 p (0 : Fin 1))).trans ?_
  refine congrArg₂ (· + ·) (shapeCast_1ab_ab_apply xo Gen.shapeCasts_S1x256x1_S256x1 p (0 : Fin 1)) ?_
  refine (rowSum_apply _ rfl p (0 : Fin 1)).trans ?_
  exact Finset.sum_congr rfl fun l _ => congrArg₂ (· * ·) (pay10_apply x1 _) (pay10_apply x1 _)

end Cert.KernelIdeal.Val

end
-- ==== Proof.Spec.lean ====
/-
  The mathematics both programs compute, over the extended reals.

  With X, Y the two arguments read as [256, 100352] matrices: the row sums of squares `sqsum X i = Σ_d X[i,d]²`, the Gram
  matrices `gram A B (i, j) = Σ_d A[i,d]·B[j,d]`, the Gaussian kernel matrix of two vectors of squared norms and a
  Gram matrix, `exp(−(max(a2[i] + b2[j] − 2·ab[i,j], 0) / 100352) / 2)`, and the mean over the 256 × 256 entries of
  `kxx + kyy − 2·kxy`. The kernel reaches the sums by halves and chunks: the contracted axis is cut into 2 halves of
  8 chunks of 6272 entries, a half's value being its eight chunk values added to zero in chunk order.
-/
import proofs.«125071_j71829033058812_1_alg».proof.KernelIdeal
import Idealize.ShloMosaic.PureOps.Ideal
import Idealize.ShloMosaic.Lib.ValueIdx

noncomputable section

namespace Cert.KernelIdeal.Val

open Cert.KernelIdeal Cert.KernelIdeal.Facts₀ Idealize.ShloMosaic Idealize.ShloMosaic.ValueIdx

variable [Cert.KernelIdeal.Facts]

/-- Entry (p, d) of a [256, 100352] matrix; zero past the end of a row (never read there). -/
def xAt (A : FVec Ideal S256x100352 .f32) (p : Fin 256) (d : ℕ) : EReal :=
  if h : d < 100352 then A (ix2 p ⟨d, h⟩) else 0

/-- Chunk `n`'s share of the dot product of row `p` of `A` with row `q` of `B`: columns n·6272 … n·6272 + 6271. -/
def chunkDot (A B : FVec Ideal S256x100352 .f32) (p q : Fin 256) (n : ℕ) : EReal :=
  ∑ l : Fin 6272, xAt A p (n * 6272 + l.val) * xAt B q (n * 6272 + l.val)

/-- Half `h`'s share: its eight chunks' shares added to zero in chunk order. -/
def halfDot (A B : FVec Ideal S256x100352 .f32) (h : Fin 2) (p q : Fin 256) : EReal :=
  0 + ∑ s ∈ Finset.range 8, chunkDot A B p q (8 * h.val + s)

/-- The per-half Gram blocks the kernel leaves: a [2, 256, 256] array. -/
def halfGram (A B : FVec Ideal S256x100352 .f32) : FVec Ideal S2x256x256 .f32 := fun j => halfDot A B (j 0) (j 1) (j 2)

/-- The per-half row sums of squares the kernel leaves: a [2, 256, 1] array. -/
def halfSq (A : FVec Ideal S256x100352 .f32) : FVec Ideal S2x256x1 .f32 := fun j => halfDot A A (j 0) (j 1) (j 1)

/-- Row sums of squares. -/
def sqsum (A : FVec Ideal S256x100352 .f32) : FVec Ideal S256 .f32 := fun i =>
  ∑ d : Fin 100352, A (ix2 (i 0) d) * A (ix2 (i 0) d)

/-- The Gram matrix of the rows of `A` against the rows of `B`. -/
def gram (A B : FVec Ideal S256x100352 .f32) : FVec Ideal S256x256 .f32 := fun i =>
  ∑ d : Fin 100352, A (ix2 (i 0) d) * B (ix2 (i 1) d)

/-- The Gaussian kernel matrix from squared norms `a2`, `b2` and a Gram matrix `ab`, as the host computes it. -/
def gauss (a2 b2 : FVec Ideal S256 .f32) (ab : FVec Ideal S256x256 .f32) : FVec Ideal S256x256 .f32 :=
  Host.exp (Host.divf (Host.negf (Host.divf (maximumf (subf (addf
      (broadcastInDim S256x256 ![0, 1] bcast_S256x1_S256x256_0_1 (broadcastInDim S256x1 ![0] bcast_S256_S256x1_0 a2))
      (broadcastInDim S256x256 ![0, 1] bcast_S1x256_S256x256_0_1 (broadcastInDim S1x256 ![1] bcast_S256_S1x256_1 b2)))
      (mulf (broadcastInDim S256x256 ![] bcast_S_S256x256 (constant (F := Ideal) S_ .f32 0x40000000#32)) ab))
      (broadcastInDim S256x256 ![] bcast_S_S256x256 (constant (F := Ideal) S_ .f32 0x00000000#32)))
      (broadcastInDim S256x256 ![] bcast_S_S256x256 (constant (F := Ideal) S_ .f32 0x47C40000#32))))
      (broadcastInDim S256x256 ![] bcast_S_S256x256 (constant (F := Ideal) S_ .f32 0x40000000#32)))

/-- The mean over all entries of `kxx + kyy − 2·kxy`, as the host computes it. -/
def mmd (kxx kyy kxy : FVec Ideal S256x256 .f32) : FVec Ideal S_ .f32 :=
  Host.divf (Host.reduceAdd (subf (addf kxx kyy)
      (mulf (broadcastInDim S256x256 ![] bcast_S_S256x256 (constant (F := Ideal) S_ .f32 0x40000000#32)) kxy))
      (constant (F := Ideal) S_ .f32 0x00000000#32) reducesTo_S256x256_S_d0_1 h_S_)
    (constant (F := Ideal) S_ .f32 0x47800000#32)

/-- The whole result from the two matrices. -/
def spec (X Y : FVec Ideal S256x100352 .f32) : FVec Ideal S_ .f32 :=
  mmd (gauss (sqsum X) (sqsum X) (gram X X)) (gauss (sqsum Y) (sqsum Y) (gram Y Y)) (gauss (sqsum X) (sqsum Y) (gram X Y))

end Cert.KernelIdeal.Val

end
-- ==== Proof.KiBlocks.lean ====
/-
  How the region's windows sit in their arrays. An input block at grid point `t` is columns t·6272 … t·6272 + 6271 of
  its [256, 100352] array (the block index along the contracted axis is 8·half + chunk, which is the point's number). An
  output block is half `t / 8` of its [2, ·, ·] array; it is written back exactly at the last chunk of a half
  (t ≡ 7 mod 8), and the two halves' blocks fill the array: so if at each such point the buffer holds that half's
  block of a function `G`, the array ends holding `G`.
-/
import proofs.«125071_j71829033058812_1_alg».proof.Proof.KiKit
import proofs.«125071_j71829033058812_1_alg».proof.Proof.Spec
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Rounds
open Idealize.ShloMosaic.Pipeline (Dat)

variable (m : (ℓ : Loc nD τ sig) → Buf (Elt Ideal) ℓ)

/-- The first input's block at point `t`, entry (p, l): column t·6272 + l of row p of the first matrix. -/
theorem iblk0_apply (c : Dev nD) (t : Fin cfg0.N) (p : Fin 256) (l : Fin 6272) :
    (iblk m c 0 t : Vec Ideal S256x6272 .f32) (ix2 p l) = xAt (V m c main_v0) p (t.val * 6272 + l.val) := by
  have hN : cfg0.N = 16 := N_0
  have ht : t.val < 16 := hN ▸ t.isLt
  have hi := (by decide +kernel : ∀ t : Fin grid0.N, win0_0.index t (0 : Fin 2) = 0
    ∧ win0_0.index t (1 : Fin 2) = t.val) t
  unfold iblk xAt
  rw [View.read_apply, dif_pos (by have := l.isLt; omega)]
  show V m c main_v0 _ = V m c main_v0 _
  congr 1
  funext a
  apply Fin.ext
  match a with
  | ⟨0, _⟩ => show win0_0.index t 0 * 256 + 1 * p.val = p.val; rw [hi.1]; omega
  | ⟨1, _⟩ => show win0_0.index t 1 * 6272 + 1 * l.val = t.val * 6272 + l.val; rw [hi.2]; omega

/-- The second input's. -/
theorem iblk1_apply (c : Dev nD) (t : Fin cfg0.N) (p : Fin 256) (l : Fin 6272) :
    (iblk m c 1 t : Vec Ideal S256x6272 .f32) (ix2 p l) = xAt (V m c main_v1) p (t.val * 6272 + l.val) := by
  have hN : cfg0.N = 16 := N_0
  have ht : t.val < 16 := hN ▸ t.isLt
  have hi := (by decide +kernel : ∀ t : Fin grid0.N, win0_1.index t (0 : Fin 2) = 0
    ∧ win0_1.index t (1 : Fin 2) = t.val) t
  unfold iblk xAt
  rw [View.read_apply, dif_pos (by have := l.isLt; omega)]
  show V m c main_v1 _ = V m c main_v1 _
  congr 1
  funext a
  apply Fin.ext
  match a with
  | ⟨0, _⟩ => show win0_1.index t 0 * 256 + 1 * p.val = p.val; rw [hi.1]; omega
  | ⟨1, _⟩ => show win0_1.index t 1 * 6272 + 1 * l.val = t.val * 6272 + l.val; rw [hi.2]; omega

/-- Output window 2: its block index is the half, it is written back at the last chunk of each half, and the two
    blocks fill the array. -/
theorem final_2 {c : Dev nD} (dat : Dat τ (Elt Ideal) Unit ℕ (UR sig nD τ) ℕ cfg0 c) (G : FVec Ideal S2x256x256 .f32)
    (hfl : ∀ (t : Fin cfg0.N) (h7 : t.val % 8 = 7) (p q : Fin 256), (dat.after 2 t : Vec Ideal S1x256x256 .f32) (ix3 (0 : Fin 1) p q) = G (ix3 (⟨t.val / 8, by have := t.isLt; have : cfg0.N = 16 := N_0; omega⟩ : Fin 2) p q)) :
    dat.arrAt 2 cfg0.N = G := by
  have hN : cfg0.N = 16 := N_0
  have hidx := (by decide +kernel : ∀ t : Fin grid0.N, win0_2.index t (0 : Fin 3) = t.val / 8
    ∧ win0_2.index t (1 : Fin 3) = 0 ∧ win0_2.index t (2 : Fin 3) = 0)
  refine dat.arrAt_eq_of_cover 2 G (fun t hf => ?_) (fun (i : S2x256x256.Idx) => ?_)
  · have h7 := (flush0_2 t).mp hf
    show (cfg0.win 2).cut (grid0.coords t) (dat.after 2 t) = _
    refine funext fun (y : S1x256x256.Idx) => ?_
    obtain ⟨a, p, q, rfl⟩ : ∃ (a : Fin 1) (p q : Fin 256), y = ix3 a p q := ⟨y 0, y 1, y 2, eq_ix3 y⟩
    obtain rfl : a = 0 := Subsingleton.elim _ _
    rw [View.read_apply]
    show (dat.after 2 t : Vec Ideal S1x256x256 .f32) _ = G _
    refine ((congrArg (dat.after 2 t : Vec Ideal S1x256x256 .f32) ?_).trans (hfl t h7 p q)).trans (congrArg G ?_)
    · exact funext fun a => Fin.ext (by match a with | ⟨0, _⟩ => rfl | ⟨1, _⟩ => rfl | ⟨2, _⟩ => rfl)
    · funext a
      apply Fin.ext
      match a with
      | ⟨0, _⟩ => show t.val / 8 = win0_2.index t 0 * 1 + 1 * 0; rw [(hidx t).1]; omega
      | ⟨1, _⟩ => show p.val = win0_2.index t 1 * 256 + 1 * p.val; rw [(hidx t).2.1]; omega
      | ⟨2, _⟩ => show q.val = win0_2.index t 2 * 256 + 1 * q.val; rw [(hidx t).2.2]; omega
  · obtain ⟨h, p, q, rfl⟩ : ∃ (h : Fin 2) (p q : Fin 256), i = ix3 h p q := ⟨i 0, i 1, i 2, eq_ix3 i⟩
    have hq := q.isLt
    have h0 := h.isLt
    have hp := p.isLt
    have hlt : 8 * h.val + 7 < cfg0.N := by omega
    have hi := hidx ⟨8 * h.val + 7, hlt⟩
    have hi0 : win0_2.index ⟨8 * h.val + 7, hlt⟩ 0 = (8 * h.val + 7) / 8 := hi.1
    refine ⟨⟨8 * h.val + 7, hlt⟩, (flush0_2 _).mpr (by show (8 * h.val + 7) % 8 = 7; omega), ?_⟩
    show ix3 h p q ∈ ((View.whole main_v2_0).slice (win0_2.rect ⟨8 * h.val + 7, hlt⟩)).set
    rw [View.set_slice_whole, Rect.mem_set_unit]
    intro a
    match a with
    | ⟨0, _⟩ =>
      show win0_2.index ⟨8 * h.val + 7, hlt⟩ 0 * 1 ≤ h.val ∧ h.val < win0_2.index ⟨8 * h.val + 7, hlt⟩ 0 * 1 + 1
      rw [hi0]; omega
    | ⟨1, _⟩ =>
      show win0_2.index ⟨8 * h.val + 7, hlt⟩ 1 * 256 ≤ p.val ∧ p.val < win0_2.index ⟨8 * h.val + 7, hlt⟩ 1 * 256 + 256
      rw [hi.2.1]; omega
    | ⟨2, _⟩ =>
      show win0_2.index ⟨8 * h.val + 7, hlt⟩ 2 * 256 ≤ q.val ∧ q.val < win0_2.index ⟨8 * h.val + 7, hlt⟩ 2 * 256 + 256
      rw [hi.2.2]; omega

/-- Output window 3: its block index is the half, it is written back at the last chunk of each half, and the two
    blocks fill the array. -/
theorem final_3 {c : Dev nD} (dat : Dat τ (Elt Ideal) Unit ℕ (UR sig nD τ) ℕ cfg0 c) (G : FVec Ideal S2x256x256 .f32)
    (hfl : ∀ (t : Fin cfg0.N) (h7 : t.val % 8 = 7) (p q : Fin 256), (dat.after 3 t : Vec Ideal S1x256x256 .f32) (ix3 (0 : Fin 1) p q) = G (ix3 (⟨t.val / 8, by have := t.isLt; have : cfg0.N = 16 := N_0; omega⟩ : Fin 2) p q)) :
    dat.arrAt 3 cfg0.N = G := by
  have hN : cfg0.N = 16 := N_0
  have hidx := (by decide +kernel : ∀ t : Fin grid0.N, win0_3.index t (0 : Fin 3) = t.val / 8
    ∧ win0_3.index t (1 : Fin 3) = 0 ∧ win0_3.index t (2 : Fin 3) = 0)
  refine dat.arrAt_eq_of_cover 3 G (fun t hf => ?_) (fun (i : S2x256x256.Idx) => ?_)
  · have h7 := (flush0_3 t).mp hf
    show (cfg0.win 3).cut (grid0.coords t) (dat.after 3 t) = _
    refine funext fun (y : S1x256x256.Idx) => ?_
    obtain ⟨a, p, q, rfl⟩ : ∃ (a : Fin 1) (p q : Fin 256), y = ix3 a p q := ⟨y 0, y 1, y 2, eq_ix3 y⟩
    obtain rfl : a = 0 := Subsingleton.elim _ _
    rw [View.read_apply]
    show (dat.after 3 t : Vec Ideal S1x256x256 .f32) _ = G _
    refine ((congrArg (dat.after 3 t : Vec Ideal S1x256x256 .f32) ?_).trans (hfl t h7 p q)).trans (congrArg G ?_)
    · exact funext fun a => Fin.ext (by match a with | ⟨0, _⟩ => rfl | ⟨1, _⟩ => rfl | ⟨2, _⟩ => rfl)
    · funext a
      apply Fin.ext
      match a with
      | ⟨0, _⟩ => show t.val / 8 = win0_3.index t 0 * 1 + 1 * 0; rw [(hidx t).1]; omega
      | ⟨1, _⟩ => show p.val = win0_3.index t 1 * 256 + 1 * p.val; rw [(hidx t).2.1]; omega
      | ⟨2, _⟩ => show q.val = win0_3.index t 2 * 256 + 1 * q.val; rw [(hidx t).2.2]; omega
  · obtain ⟨h, p, q, rfl⟩ : ∃ (h : Fin 2) (p q : Fin 256), i = ix3 h p q := ⟨i 0, i 1, i 2, eq_ix3 i⟩
    have hq := q.isLt
    have h0 := h.isLt
    have hp := p.isLt
    have hlt : 8 * h.val + 7 < cfg0.N := by omega
    have hi := hidx ⟨8 * h.val + 7, hlt⟩
    have hi0 : win0_3.index ⟨8 * h.val + 7, hlt⟩ 0 = (8 * h.val + 7) / 8 := hi.1
    refine ⟨⟨8 * h.val + 7, hlt⟩, (flush0_3 _).mpr (by show (8 * h.val + 7) % 8 = 7; omega), ?_⟩
    show ix3 h p q ∈ ((View.whole main_v2_1).slice (win0_3.rect ⟨8 * h.val + 7, hlt⟩)).set
    rw [View.set_slice_whole, Rect.mem_set_unit]
    intro a
    match a with
    | ⟨0, _⟩ =>
      show win0_3.index ⟨8 * h.val + 7, hlt⟩ 0 * 1 ≤ h.val ∧ h.val < win0_3.index ⟨8 * h.val + 7, hlt⟩ 0 * 1 + 1
      rw [hi0]; omega
    | ⟨1, _⟩ =>
      show win0_3.index ⟨8 * h.val + 7, hlt⟩ 1 * 256 ≤ p.val ∧ p.val < win0_3.index ⟨8 * h.val + 7, hlt⟩ 1 * 256 + 256
      rw [hi.2.1]; omega
    | ⟨2, _⟩ =>
      show win0_3.index ⟨8 * h.val + 7, hlt⟩ 2 * 256 ≤ q.val ∧ q.val < win0_3.index ⟨8 * h.val + 7, hlt⟩ 2 * 256 + 256
      rw [hi.2.2]; omega

/-- Output window 4: its block index is the half, it is written back at the last chunk of each half, and the two
    blocks fill the array. -/
theorem final_4 {c : Dev nD} (dat : Dat τ (Elt Ideal) Unit ℕ (UR sig nD τ) ℕ cfg0 c) (G : FVec Ideal S2x256x256 .f32)
    (hfl : ∀ (t : Fin cfg0.N) (h7 : t.val % 8 = 7) (p q : Fin 256), (dat.after 4 t : Vec Ideal S1x256x256 .f32) (ix3 (0 : Fin 1) p q) = G (ix3 (⟨t.val / 8, by have := t.isLt; have : cfg0.N = 16 := N_0; omega⟩ : Fin 2) p q)) :
    dat.arrAt 4 cfg0.N = G := by
  have hN : cfg0.N = 16 := N_0
  have hidx := (by decide +kernel : ∀ t : Fin grid0.N, win0_4.index t (0 : Fin 3) = t.val / 8
    ∧ win0_4.index t (1 : Fin 3) = 0 ∧ win0_4.index t (2 : Fin 3) = 0)
  refine dat.arrAt_eq_of_cover 4 G (fun t hf => ?_) (fun (i : S2x256x256.Idx) => ?_)
  · have h7 := (flush0_4 t).mp hf
    show (cfg0.win 4).cut (grid0.coords t) (dat.after 4 t) = _
    refine funext fun (y : S1x256x256.Idx) => ?_
    obtain ⟨a, p, q, rfl⟩ : ∃ (a : Fin 1) (p q : Fin 256), y = ix3 a p q := ⟨y 0, y 1, y 2, eq_ix3 y⟩
    obtain rfl : a = 0 := Subsingleton.elim _ _
    rw [View.read_apply]
    show (dat.after 4 t : Vec Ideal S1x256x256 .f32) _ = G _
    refine ((congrArg (dat.after 4 t : Vec Ideal S1x256x256 .f32) ?_).trans (hfl t h7 p q)).trans (congrArg G ?_)
    · exact funext fun a => Fin.ext (by match a with | ⟨0, _⟩ => rfl | ⟨1, _⟩ => rfl | ⟨2, _⟩ => rfl)
    · funext a
      apply Fin.ext
      match a with
      | ⟨0, _⟩ => show t.val / 8 = win0_4.index t 0 * 1 + 1 * 0; rw [(hidx t).1]; omega
      | ⟨1, _⟩ => show p.val = win0_4.index t 1 * 256 + 1 * p.val; rw [(hidx t).2.1]; omega
      | ⟨2, _⟩ => show q.val = win0_4.index t 2 * 256 + 1 * q.val; rw [(hidx t).2.2]; omega
  · obtain ⟨h, p, q, rfl⟩ : ∃ (h : Fin 2) (p q : Fin 256), i = ix3 h p q := ⟨i 0, i 1, i 2, eq_ix3 i⟩
    have hq := q.isLt
    have h0 := h.isLt
    have hp := p.isLt
    have hlt : 8 * h.val + 7 < cfg0.N := by omega
    have hi := hidx ⟨8 * h.val + 7, hlt⟩
    have hi0 : win0_4.index ⟨8 * h.val + 7, hlt⟩ 0 = (8 * h.val + 7) / 8 := hi.1
    refine ⟨⟨8 * h.val + 7, hlt⟩, (flush0_4 _).mpr (by show (8 * h.val + 7) % 8 = 7; omega), ?_⟩
    show ix3 h p q ∈ ((View.whole main_v2_2).slice (win0_4.rect ⟨8 * h.val + 7, hlt⟩)).set
    rw [View.set_slice_whole, Rect.mem_set_unit]
    intro a
    match a with
    | ⟨0, _⟩ =>
      show win0_4.index ⟨8 * h.val + 7, hlt⟩ 0 * 1 ≤ h.val ∧ h.val < win0_4.index ⟨8 * h.val + 7, hlt⟩ 0 * 1 + 1
      rw [hi0]; omega
    | ⟨1, _⟩ =>
      show win0_4.index ⟨8 * h.val + 7, hlt⟩ 1 * 256 ≤ p.val ∧ p.val < win0_4.index ⟨8 * h.val + 7, hlt⟩ 1 * 256 + 256
      rw [hi.2.1]; omega
    | ⟨2, _⟩ =>
      show win0_4.index ⟨8 * h.val + 7, hlt⟩ 2 * 256 ≤ q.val ∧ q.val < win0_4.index ⟨8 * h.val + 7, hlt⟩ 2 * 256 + 256
      rw [hi.2.2]; omega

/-- Output window 5: its block index is the half, it is written back at the last chunk of each half, and the two
    blocks fill the array. -/
theorem final_5 {c : Dev nD} (dat : Dat τ (Elt Ideal) Unit ℕ (UR sig nD τ) ℕ cfg0 c) (G : FVec Ideal S2x256x1 .f32)
    (hfl : ∀ (t : Fin cfg0.N) (h7 : t.val % 8 = 7) (p : Fin 256), (dat.after 5 t : Vec Ideal S1x256x1 .f32) (ix3 (0 : Fin 1) p (0 : Fin 1)) = G (ix3 (⟨t.val / 8, by have := t.isLt; have : cfg0.N = 16 := N_0; omega⟩ : Fin 2) p (0 : Fin 1))) :
    dat.arrAt 5 cfg0.N = G := by
  have hN : cfg0.N = 16 := N_0
  have hidx := (by decide +kernel : ∀ t : Fin grid0.N, win0_5.index t (0 : Fin 3) = t.val / 8
    ∧ win0_5.index t (1 : Fin 3) = 0 ∧ win0_5.index t (2 : Fin 3) = 0)
  refine dat.arrAt_eq_of_cover 5 G (fun t hf => ?_) (fun (i : S2x256x1.Idx) => ?_)
  · have h7 := (flush0_5 t).mp hf
    show (cfg0.win 5).cut (grid0.coords t) (dat.after 5 t) = _
    refine funext fun (y : S1x256x1.Idx) => ?_
    obtain ⟨a, p, b, rfl⟩ : ∃ (a : Fin 1) (p : Fin 256) (b : Fin 1), y = ix3 a p b := ⟨y 0, y 1, y 2, eq_ix3 y⟩
    obtain rfl : a = 0 := Subsingleton.elim _ _
    obtain rfl : b = 0 := Subsingleton.elim _ _
    rw [View.read_apply]
    show (dat.after 5 t : Vec Ideal S1x256x1 .f32) _ = G _
    refine ((congrArg (dat.after 5 t : Vec Ideal S1x256x1 .f32) ?_).trans (hfl t h7 p)).trans (congrArg G ?_)
    · exact funext fun a => Fin.ext (by match a with | ⟨0, _⟩ => rfl | ⟨1, _⟩ => rfl | ⟨2, _⟩ => rfl)
    · funext a
      apply Fin.ext
      match a with
      | ⟨0, _⟩ => show t.val / 8 = win0_5.index t 0 * 1 + 1 * 0; rw [(hidx t).1]; omega
      | ⟨1, _⟩ => show p.val = win0_5.index t 1 * 256 + 1 * p.val; rw [(hidx t).2.1]; omega
      | ⟨2, _⟩ => show 0 = win0_5.index t 2 * 1 + 1 * 0; rw [(hidx t).2.2]
  · obtain ⟨h, p, q, rfl⟩ : ∃ (h : Fin 2) (p : Fin 256) (q : Fin 1), i = ix3 h p q := ⟨i 0, i 1, i 2, eq_ix3 i⟩
    have hq := q.isLt
    have h0 := h.isLt
    have hp := p.isLt
    have hlt : 8 * h.val + 7 < cfg0.N := by omega
    have hi := hidx ⟨8 * h.val + 7, hlt⟩
    have hi0 : win0_5.index ⟨8 * h.val + 7, hlt⟩ 0 = (8 * h.val + 7) / 8 := hi.1
    refine ⟨⟨8 * h.val + 7, hlt⟩, (flush0_5 _).mpr (by show (8 * h.val + 7) % 8 = 7; omega), ?_⟩
    show ix3 h p q ∈ ((View.whole main_v2_3).slice (win0_5.rect ⟨8 * h.val + 7, hlt⟩)).set
    rw [View.set_slice_whole, Rect.mem_set_unit]
    intro a
    match a with
    | ⟨0, _⟩ =>
      show win0_5.index ⟨8 * h.val + 7, hlt⟩ 0 * 1 ≤ h.val ∧ h.val < win0_5.index ⟨8 * h.val + 7, hlt⟩ 0 * 1 + 1
      rw [hi0]; omega
    | ⟨1, _⟩ =>
      show win0_5.index ⟨8 * h.val + 7, hlt⟩ 1 * 256 ≤ p.val ∧ p.val < win0_5.index ⟨8 * h.val + 7, hlt⟩ 1 * 256 + 256
      rw [hi.2.1]; omega
    | ⟨2, _⟩ =>
      show win0_5.index ⟨8 * h.val + 7, hlt⟩ 2 * 1 ≤ q.val ∧ q.val < win0_5.index ⟨8 * h.val + 7, hlt⟩ 2 * 1 + 1
      rw [hi.2.2]; omega

/-- Output window 6: its block index is the half, it is written back at the last chunk of each half, and the two
    blocks fill the array. -/
theorem final_6 {c : Dev nD} (dat : Dat τ (Elt Ideal) Unit ℕ (UR sig nD τ) ℕ cfg0 c) (G : FVec Ideal S2x256x1 .f32)
    (hfl : ∀ (t : Fin cfg0.N) (h7 : t.val % 8 = 7) (p : Fin 256), (dat.after 6 t : Vec Ideal S1x256x1 .f32) (ix3 (0 : Fin 1) p (0 : Fin 1)) = G (ix3 (⟨t.val / 8, by have := t.isLt; have : cfg0.N = 16 := N_0; omega⟩ : Fin 2) p (0 : Fin 1))) :
    dat.arrAt 6 cfg0.N = G := by
  have hN : cfg0.N = 16 := N_0
  have hidx := (by decide +kernel : ∀ t : Fin grid0.N, win0_6.index t (0 : Fin 3) = t.val / 8
    ∧ win0_6.index t (1 : Fin 3) = 0 ∧ win0_6.index t (2 : Fin 3) = 0)
  refine dat.arrAt_eq_of_cover 6 G (fun t hf => ?_) (fun (i : S2x256x1.Idx) => ?_)
  · have h7 := (flush0_6 t).mp hf
    show (cfg0.win 6).cut (grid0.coords t) (dat.after 6 t) = _
    refine funext fun (y : S1x256x1.Idx) => ?_
    obtain ⟨a, p, b, rfl⟩ : ∃ (a : Fin 1) (p : Fin 256) (b : Fin 1), y = ix3 a p b := ⟨y 0, y 1, y 2, eq_ix3 y⟩
    obtain rfl : a = 0 := Subsingleton.elim _ _
    obtain rfl : b = 0 := Subsingleton.elim _ _
    rw [View.read_apply]
    show (dat.after 6 t : Vec Ideal S1x256x1 .f32) _ = G _
    refine ((congrArg (dat.after 6 t : Vec Ideal S1x256x1 .f32) ?_).trans (hfl t h7 p)).trans (congrArg G ?_)
    · exact funext fun a => Fin.ext (by match a with | ⟨0, _⟩ => rfl | ⟨1, _⟩ => rfl | ⟨2, _⟩ => rfl)
    · funext a
      apply Fin.ext
      match a with
      | ⟨0, _⟩ => show t.val / 8 = win0_6.index t 0 * 1 + 1 * 0; rw [(hidx t).1]; omega
      | ⟨1, _⟩ => show p.val = win0_6.index t 1 * 256 + 1 * p.val; rw [(hidx t).2.1]; omega
      | ⟨2, _⟩ => show 0 = win0_6.index t 2 * 1 + 1 * 0; rw [(hidx t).2.2]
  · obtain ⟨h, p, q, rfl⟩ : ∃ (h : Fin 2) (p : Fin 256) (q : Fin 1), i = ix3 h p q := ⟨i 0, i 1, i 2, eq_ix3 i⟩
    have hq := q.isLt
    have h0 := h.isLt
    have hp := p.isLt
    have hlt : 8 * h.val + 7 < cfg0.N := by omega
    have hi := hidx ⟨8 * h.val + 7, hlt⟩
    have hi0 : win0_6.index ⟨8 * h.val + 7, hlt⟩ 0 = (8 * h.val + 7) / 8 := hi.1
    refine ⟨⟨8 * h.val + 7, hlt⟩, (flush0_6 _).mpr (by show (8 * h.val + 7) % 8 = 7; omega), ?_⟩
    show ix3 h p q ∈ ((View.whole main_v2_4).slice (win0_6.rect ⟨8 * h.val + 7, hlt⟩)).set
    rw [View.set_slice_whole, Rect.mem_set_unit]
    intro a
    match a with
    | ⟨0, _⟩ =>
      show win0_6.index ⟨8 * h.val + 7, hlt⟩ 0 * 1 ≤ h.val ∧ h.val < win0_6.index ⟨8 * h.val + 7, hlt⟩ 0 * 1 + 1
      rw [hi0]; omega
    | ⟨1, _⟩ =>
      show win0_6.index ⟨8 * h.val + 7, hlt⟩ 1 * 256 ≤ p.val ∧ p.val < win0_6.index ⟨8 * h.val + 7, hlt⟩ 1 * 256 + 256
      rw [hi.2.1]; omega
    | ⟨2, _⟩ =>
      show win0_6.index ⟨8 * h.val + 7, hlt⟩ 2 * 1 ≤ q.val ∧ q.val < win0_6.index ⟨8 * h.val + 7, hlt⟩ 2 * 1 + 1
      rw [hi.2.2]; omega

end Cert.KernelIdeal.Val

end
-- ==== Proof.KiStep.lean ====
/-
  One accumulation step and the fold over a half, index by index. At grid point `t` the body adds to each output
  buffer's running entry chunk `t`'s share: for the Gram buffers the chunk's dot product of two rows, for the
  sum-of-squares buffers a row's dot product with itself. A quantity that is reset to "zero plus the chunk's share" at
  the first chunk of a half and stepped by "plus the chunk's share" at each later chunk is, at chunk `j` of half `q`,
  zero plus the shares of chunks 8q … 8q + j in order.
-/
import proofs.«125071_j71829033058812_1_alg».proof.Proof.KiPayIdx
import proofs.«125071_j71829033058812_1_alg».proof.Proof.KiBlocks

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx

/-- The fold over a half: reset at the multiples of eight, stepped elsewhere. -/
theorem fold_half {ι : Type*} (f : (n : ℕ) → n < 16 → ι → EReal) (Mx : ℕ → ι → EReal)
    (h0 : ∀ (n : ℕ) (h : n < 16), n % 8 = 0 → ∀ i, f n h i = 0 + Mx n i)
    (hs : ∀ (n : ℕ) (h : n + 1 < 16), ¬(n + 1) % 8 = 0 → ∀ i, f (n + 1) h i = f n (Nat.lt_of_succ_lt h) i + Mx (n + 1) i)
    (q j : ℕ) (hj : j < 8) (h : 8 * q + j < 16) (i : ι) :
    f (8 * q + j) h i = 0 + ∑ s ∈ Finset.range (j + 1), Mx (8 * q + s) i := by
  induction j with
  | zero =>
    rw [Finset.sum_range_one]
    exact h0 (8 * q + 0) h (by omega) i
  | succ j ih =>
    refine (hs (8 * q + j) h (by omega) i).trans ?_
    rw [ih (by omega) (Nat.lt_of_succ_lt h), Finset.sum_range_succ _ (j + 1), add_assoc (0 : EReal)]
    rfl

variable (m : (ℓ : Loc nD τ sig) → Buf (Elt Ideal) ℓ)

/-- The first Gram buffer's step at point `t`. -/
theorem step_2 (c : Dev nD) (t : Fin cfg0.N) (xo : Vec Ideal S1x256x256 .f32) (p q : Fin 256) :
    k0_pay1 (F := Ideal) (k0_pay15 xo) (k0_pay16 (iblk m c 0 t : Vec Ideal S256x6272 .f32)) (ix3 (0 : Fin 1) p q)
      = xo (ix3 (0 : Fin 1) p q) + chunkDot (V m c main_v0) (V m c main_v0) p q t.val := by
  rw [gram1_apply]
  unfold chunkDot
  refine congrArg (_ + ·) (Finset.sum_congr rfl fun l _ => ?_)
  rw [iblk0_apply, iblk0_apply]

/-- The second's. -/
theorem step_3 (c : Dev nD) (t : Fin cfg0.N) (xo : Vec Ideal S1x256x256 .f32) (p q : Fin 256) :
    k0_pay2 (F := Ideal) (k0_pay14 (iblk m c 1 t : Vec Ideal S256x6272 .f32)) xo (ix3 (0 : Fin 1) p q)
      = xo (ix3 (0 : Fin 1) p q) + chunkDot (V m c main_v1) (V m c main_v1) p q t.val := by
  rw [gram2_apply]
  unfold chunkDot
  refine congrArg (_ + ·) (Finset.sum_congr rfl fun l _ => ?_)
  rw [iblk1_apply, iblk1_apply]

/-- The third's. -/
theorem step_4 (c : Dev nD) (t : Fin cfg0.N) (xo : Vec Ideal S1x256x256 .f32) (p q : Fin 256) :
    k0_pay3 (F := Ideal) (k0_pay13 (iblk m c 0 t : Vec Ideal S256x6272 .f32)) (k0_pay14 (iblk m c 1 t : Vec Ideal S256x6272 .f32)) xo (ix3 (0 : Fin 1) p q)
      = xo (ix3 (0 : Fin 1) p q) + chunkDot (V m c main_v0) (V m c main_v1) p q t.val := by
  rw [gram3_apply]
  unfold chunkDot
  refine congrArg (_ + ·) (Finset.sum_congr rfl fun l _ => ?_)
  rw [iblk0_apply, iblk1_apply]

/-- The first sum-of-squares buffer's step. -/
theorem step_5 (c : Dev nD) (t : Fin cfg0.N) (xo : Vec Ideal S1x256x1 .f32) (p : Fin 256) :
    k0_pay11 (F := Ideal) (iblk m c 0 t : Vec Ideal S256x6272 .f32) xo (ix3 (0 : Fin 1) p (0 : Fin 1))
      = xo (ix3 (0 : Fin 1) p (0 : Fin 1)) + chunkDot (V m c main_v0) (V m c main_v0) p p t.val := by
  rw [sq1_apply]
  unfold chunkDot
  refine congrArg (_ + ·) (Finset.sum_congr rfl fun l _ => ?_)
  rw [iblk0_apply]

/-- The second's. -/
theorem step_6 (c : Dev nD) (t : Fin cfg0.N) (xo : Vec Ideal S1x256x1 .f32) (p : Fin 256) :
    k0_pay12 (F := Ideal) (iblk m c 1 t : Vec Ideal S256x6272 .f32) xo (ix3 (0 : Fin 1) p (0 : Fin 1))
      = xo (ix3 (0 : Fin 1) p (0 : Fin 1)) + chunkDot (V m c main_v1) (V m c main_v1) p p t.val := by
  rw [sq2_apply]
  unfold chunkDot
  refine congrArg (_ + ·) (Finset.sum_congr rfl fun l _ => ?_)
  rw [iblk1_apply]

end Cert.KernelIdeal.Val

end
-- ==== Proof.KiAcc.lean ====
/-
  What the five arrays hold after the region, over the extended reals. Each output buffer is reset at the first chunk
  of a half to zero plus that chunk's share and stepped at each later chunk by the chunk's share, so at the last chunk
  of half `h` it holds zero plus the shares of chunks 8h … 8h + 7 in order: that half's block of the array of half
  values. The block is written back exactly there, and the two halves' blocks fill the array.
-/
import proofs.«125071_j71829033058812_1_alg».proof.Proof.KiPieces
import proofs.«125071_j71829033058812_1_alg».proof.Proof.KiPiecesB
import proofs.«125071_j71829033058812_1_alg».proof.Proof.KiStep

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

theorem N16 : cfg0.N = 16 := N_0

/-- The fold at a point that is the last chunk of its half. -/
theorem fold_at {ι : Type*} (f : (n : ℕ) → n < 16 → ι → EReal) (Mx : ℕ → ι → EReal)
    (h0 : ∀ (n : ℕ) (h : n < 16), n % 8 = 0 → ∀ i, f n h i = 0 + Mx n i)
    (hs : ∀ (n : ℕ) (h : n + 1 < 16), ¬(n + 1) % 8 = 0 → ∀ i, f (n + 1) h i = f n (Nat.lt_of_succ_lt h) i + Mx (n + 1) i)
    (t : ℕ) (ht : t < 16) (h7 : t % 8 = 7) (i : ι) :
    f t ht i = 0 + ∑ s ∈ Finset.range 8, Mx (8 * (t / 8) + s) i := by
  have e : 8 * (t / 8) + 7 = t := by omega
  have key : ∀ (u : ℕ) (hu : u < 16), u = t → f u hu i = f t ht i := fun u hu e => by subst e; rfl
  rw [← key (8 * (t / 8) + 7) (by omega) e]
  exact fold_half f Mx h0 hs (t / 8) 7 (by omega) (by omega) i

variable (m : (ℓ : Loc nD τ sig) → Buf (Elt Ideal) ℓ)

/-! ## Output window 2 -/

/-- At the first chunk of a half the buffer holds zero plus the chunk's share. -/
theorem reset_2 (c : Dev nD) (n : ℕ) (h : n < cfg0.N) (h0 : n % 8 = 0) (p q : Fin 256) :
    ((outsAt0 m c n h).1 : Vec Ideal S1x256x256 .f32) (ix3 (0 : Fin 1) p q) = 0 + chunkDot (V m c main_v0) (V m c main_v0) p q n := by
  rw [show outsAt0 m c n h = _ from outsAt0_A m c ⟨n, h⟩ h0]
  dsimp only
  rw [pieceA_2, step_2 m c ⟨n, h⟩, pay4_apply]

/-- At a later chunk it holds what the point before left plus the chunk's share. -/
theorem stepAt_2 (c : Dev nD) (n : ℕ) (h : n + 1 < cfg0.N) (h0 : ¬(n + 1) % 8 = 0) (p q : Fin 256) :
    ((outsAt0 m c (n + 1) h).1 : Vec Ideal S1x256x256 .f32) (ix3 (0 : Fin 1) p q)
      = ((outsAt0 m c n (Nat.lt_of_succ_lt h)).1 : Vec Ideal S1x256x256 .f32) (ix3 (0 : Fin 1) p q) + chunkDot (V m c main_v0) (V m c main_v0) p q (n + 1) := by
  rw [show outsAt0 m c (n + 1) h = _ from outsAt0_B m c ⟨n + 1, h⟩ h0]
  dsimp only
  rw [pieceB_2, step_2 m c ⟨n + 1, h⟩]
  rfl

/-- So at the last chunk of a half it holds that half's block of the array of half values. -/
theorem half_2 (c : Dev nD) (t : Fin cfg0.N) (h7 : t.val % 8 = 7) (p q : Fin 256) :
    ((dats m 0 c).after 2 t : Vec Ideal S1x256x256 .f32) (ix3 (0 : Fin 1) p q) = halfGram (V m c main_v0) (V m c main_v0) (ix3 (⟨t.val / 8, by have := t.isLt; have : cfg0.N = 16 := N_0; omega⟩ : Fin 2) p q) := by
  rw [after0_2]
  have ht : t.val < 16 := lt_of_lt_of_eq t.isLt N16
  exact fold_at (ι := Fin 256 × Fin 256) (fun n h pq => ((outsAt0 m c n (lt_of_lt_of_eq h N16.symm)).1 : Vec Ideal S1x256x256 .f32) (ix3 (0 : Fin 1) pq.1 pq.2)) (fun n pq => chunkDot (V m c main_v0) (V m c main_v0) pq.1 pq.2 n)
    (fun n h hn i => reset_2 m c n _ hn i.1 i.2) (fun n h hn i => stepAt_2 m c n _ hn i.1 i.2) t.val ht h7 (p, q)

/-- The array after the region. -/
theorem arr_2 (c : Dev nD) : (dats m 0 c).arrAt 2 cfg0.N = halfGram (V m c main_v0) (V m c main_v0) :=
  final_2 (dats m 0 c) _ (fun t h7 p q => half_2 m c t h7 p q)

/-! ## Output window 3 -/

/-- At the first chunk of a half the buffer holds zero plus the chunk's share. -/
theorem reset_3 (c : Dev nD) (n : ℕ) (h : n < cfg0.N) (h0 : n % 8 = 0) (p q : Fin 256) :
    ((outsAt0 m c n h).2.1 : Vec Ideal S1x256x256 .f32) (ix3 (0 : Fin 1) p q) = 0 + chunkDot (V m c main_v1) (V m c main_v1) p q n := by
  rw [show outsAt0 m c n h = _ from outsAt0_A m c ⟨n, h⟩ h0]
  dsimp only
  rw [pieceA_3, step_3 m c ⟨n, h⟩, pay5_apply]

/-- At a later chunk it holds what the point before left plus the chunk's share. -/
theorem stepAt_3 (c : Dev nD) (n : ℕ) (h : n + 1 < cfg0.N) (h0 : ¬(n + 1) % 8 = 0) (p q : Fin 256) :
    ((outsAt0 m c (n + 1) h).2.1 : Vec Ideal S1x256x256 .f32) (ix3 (0 : Fin 1) p q)
      = ((outsAt0 m c n (Nat.lt_of_succ_lt h)).2.1 : Vec Ideal S1x256x256 .f32) (ix3 (0 : Fin 1) p q) + chunkDot (V m c main_v1) (V m c main_v1) p q (n + 1) := by
  rw [show outsAt0 m c (n + 1) h = _ from outsAt0_B m c ⟨n + 1, h⟩ h0]
  dsimp only
  rw [pieceB_3, step_3 m c ⟨n + 1, h⟩]
  rfl

/-- So at the last chunk of a half it holds that half's block of the array of half values. -/
theorem half_3 (c : Dev nD) (t : Fin cfg0.N) (h7 : t.val % 8 = 7) (p q : Fin 256) :
    ((dats m 0 c).after 3 t : Vec Ideal S1x256x256 .f32) (ix3 (0 : Fin 1) p q) = halfGram (V m c main_v1) (V m c main_v1) (ix3 (⟨t.val / 8, by have := t.isLt; have : cfg0.N = 16 := N_0; omega⟩ : Fin 2) p q) := by
  rw [after0_3]
  have ht : t.val < 16 := lt_of_lt_of_eq t.isLt N16
  exact fold_at (ι := Fin 256 × Fin 256) (fun n h pq => ((outsAt0 m c n (lt_of_lt_of_eq h N16.symm)).2.1 : Vec Ideal S1x256x256 .f32) (ix3 (0 : Fin 1) pq.1 pq.2)) (fun n pq => chunkDot (V m c main_v1) (V m c main_v1) pq.1 pq.2 n)
    (fun n h hn i => reset_3 m c n _ hn i.1 i.2) (fun n h hn i => stepAt_3 m c n _ hn i.1 i.2) t.val ht h7 (p, q)

/-- The array after the region. -/
theorem arr_3 (c : Dev nD) : (dats m 0 c).arrAt 3 cfg0.N = halfGram (V m c main_v1) (V m c main_v1) :=
  final_3 (dats m 0 c) _ (fun t h7 p q => half_3 m c t h7 p q)

/-! ## Output window 4 -/

/-- At the first chunk of a half the buffer holds zero plus the chunk's share. -/
theorem reset_4 (c : Dev nD) (n : ℕ) (h : n < cfg0.N) (h0 : n % 8 = 0) (p q : Fin 256) :
    ((outsAt0 m c n h).2.2.1 : Vec Ideal S1x256x256 .f32) (ix3 (0 : Fin 1) p q) = 0 + chunkDot (V m c main_v0) (V m c main_v1) p q n := by
  rw [show outsAt0 m c n h = _ from outsAt0_A m c ⟨n, h⟩ h0]
  dsimp only
  rw [pieceA_4, step_4 m c ⟨n, h⟩, pay6_apply]

/-- At a later chunk it holds what the point before left plus the chunk's share. -/
theorem stepAt_4 (c : Dev nD) (n : ℕ) (h : n + 1 < cfg0.N) (h0 : ¬(n + 1) % 8 = 0) (p q : Fin 256) :
    ((outsAt0 m c (n + 1) h).2.2.1 : Vec Ideal S1x256x256 .f32) (ix3 (0 : Fin 1) p q)
      = ((outsAt0 m c n (Nat.lt_of_succ_lt h)).2.2.1 : Vec Ideal S1x256x256 .f32) (ix3 (0 : Fin 1) p q) + chunkDot (V m c main_v0) (V m c main_v1) p q (n + 1) := by
  rw [show outsAt0 m c (n + 1) h = _ from outsAt0_B m c ⟨n + 1, h⟩ h0]
  dsimp only
  rw [pieceB_4, step_4 m c ⟨n + 1, h⟩]
  rfl

/-- So at the last chunk of a half it holds that half's block of the array of half values. -/
theorem half_4 (c : Dev nD) (t : Fin cfg0.N) (h7 : t.val % 8 = 7) (p q : Fin 256) :
    ((dats m 0 c).after 4 t : Vec Ideal S1x256x256 .f32) (ix3 (0 : Fin 1) p q) = halfGram (V m c main_v0) (V m c main_v1) (ix3 (⟨t.val / 8, by have := t.isLt; have : cfg0.N = 16 := N_0; omega⟩ : Fin 2) p q) := by
  rw [after0_4]
  have ht : t.val < 16 := lt_of_lt_of_eq t.isLt N16
  exact fold_at (ι := Fin 256 × Fin 256) (fun n h pq => ((outsAt0 m c n (lt_of_lt_of_eq h N16.symm)).2.2.1 : Vec Ideal S1x256x256 .f32) (ix3 (0 : Fin 1) pq.1 pq.2)) (fun n pq => chunkDot (V m c main_v0) (V m c main_v1) pq.1 pq.2 n)
    (fun n h hn i => reset_4 m c n _ hn i.1 i.2) (fun n h hn i => stepAt_4 m c n _ hn i.1 i.2) t.val ht h7 (p, q)

/-- The array after the region. -/
theorem arr_4 (c : Dev nD) : (dats m 0 c).arrAt 4 cfg0.N = halfGram (V m c main_v0) (V m c main_v1) :=
  final_4 (dats m 0 c) _ (fun t h7 p q => half_4 m c t h7 p q)

/-! ## Output window 5 -/

/-- At the first chunk of a half the buffer holds zero plus the chunk's share. -/
theorem reset_5 (c : Dev nD) (n : ℕ) (h : n < cfg0.N) (h0 : n % 8 = 0) (p : Fin 256) :
    ((outsAt0 m c n h).2.2.2.1 : Vec Ideal S1x256x1 .f32) (ix3 (0 : Fin 1) p (0 : Fin 1)) = 0 + chunkDot (V m c main_v0) (V m c main_v0) p p n := by
  rw [show outsAt0 m c n h = _ from outsAt0_A m c ⟨n, h⟩ h0]
  dsimp only
  rw [pieceA_5, step_5 m c ⟨n, h⟩, pay7_apply]

/-- At a later chunk it holds what the point before left plus the chunk's share. -/
theorem stepAt_5 (c : Dev nD) (n : ℕ) (h : n + 1 < cfg0.N) (h0 : ¬(n + 1) % 8 = 0) (p : Fin 256) :
    ((outsAt0 m c (n + 1) h).2.2.2.1 : Vec Ideal S1x256x1 .f32) (ix3 (0 : Fin 1) p (0 : Fin 1))
      = ((outsAt0 m c n (Nat.lt_of_succ_lt h)).2.2.2.1 : Vec Ideal S1x256x1 .f32) (ix3 (0 : Fin 1) p (0 : Fin 1)) + chunkDot (V m c main_v0) (V m c main_v0) p p (n + 1) := by
  rw [show outsAt0 m c (n + 1) h = _ from outsAt0_B m c ⟨n + 1, h⟩ h0]
  dsimp only
  rw [pieceB_5, step_5 m c ⟨n + 1, h⟩]
  rfl

/-- So at the last chunk of a half it holds that half's block of the array of half values. -/
theorem half_5 (c : Dev nD) (t : Fin cfg0.N) (h7 : t.val % 8 = 7) (p : Fin 256) :
    ((dats m 0 c).after 5 t : Vec Ideal S1x256x1 .f32) (ix3 (0 : Fin 1) p (0 : Fin 1)) = halfSq (V m c main_v0) (ix3 (⟨t.val / 8, by have := t.isLt; have : cfg0.N = 16 := N_0; omega⟩ : Fin 2) p (0 : Fin 1)) := by
  rw [after0_5]
  have ht : t.val < 16 := lt_of_lt_of_eq t.isLt N16
  exact fold_at (ι := Fin 256) (fun n h p => ((outsAt0 m c n (lt_of_lt_of_eq h N16.symm)).2.2.2.1 : Vec Ideal S1x256x1 .f32) (ix3 (0 : Fin 1) p (0 : Fin 1))) (fun n p => chunkDot (V m c main_v0) (V m c main_v0) p p n)
    (fun n h hn i => reset_5 m c n _ hn i) (fun n h hn i => stepAt_5 m c n _ hn i) t.val ht h7 p

/-- The array after the region. -/
theorem arr_5 (c : Dev nD) : (dats m 0 c).arrAt 5 cfg0.N = halfSq (V m c main_v0) :=
  final_5 (dats m 0 c) _ (fun t h7 p => half_5 m c t h7 p)

/-! ## Output window 6 -/

/-- At the first chunk of a half the buffer holds zero plus the chunk's share. -/
theorem reset_6 (c : Dev nD) (n : ℕ) (h : n < cfg0.N) (h0 : n % 8 = 0) (p : Fin 256) :
    ((outsAt0 m c n h).2.2.2.2 : Vec Ideal S1x256x1 .f32) (ix3 (0 : Fin 1) p (0 : Fin 1)) = 0 + chunkDot (V m c main_v1) (V m c main_v1) p p n := by
  rw [show outsAt0 m c n h = _ from outsAt0_A m c ⟨n, h⟩ h0]
  dsimp only
  rw [pieceA_6, step_6 m c ⟨n, h⟩, pay8_apply]

/-- At a later chunk it holds what the point before left plus the chunk's share. -/
theorem stepAt_6 (c : Dev nD) (n : ℕ) (h : n + 1 < cfg0.N) (h0 : ¬(n + 1) % 8 = 0) (p : Fin 256) :
    ((outsAt0 m c (n + 1) h).2.2.2.2 : Vec Ideal S1x256x1 .f32) (ix3 (0 : Fin 1) p (0 : Fin 1))
      = ((outsAt0 m c n (Nat.lt_of_succ_lt h)).2.2.2.2 : Vec Ideal S1x256x1 .f32) (ix3 (0 : Fin 1) p (0 : Fin 1)) + chunkDot (V m c main_v1) (V m c main_v1) p p (n + 1) := by
  rw [show outsAt0 m c (n + 1) h = _ from outsAt0_B m c ⟨n + 1, h⟩ h0]
  dsimp only
  rw [pieceB_6, step_6 m c ⟨n + 1, h⟩]
  rfl

/-- So at the last chunk of a half it holds that half's block of the array of half values. -/
theorem half_6 (c : Dev nD) (t : Fin cfg0.N) (h7 : t.val % 8 = 7) (p : Fin 256) :
    ((dats m 0 c).after 6 t : Vec Ideal S1x256x1 .f32) (ix3 (0 : Fin 1) p (0 : Fin 1)) = halfSq (V m c main_v1) (ix3 (⟨t.val / 8, by have := t.isLt; have : cfg0.N = 16 := N_0; omega⟩ : Fin 2) p (0 : Fin 1)) := by
  rw [after0_6]
  have ht : t.val < 16 := lt_of_lt_of_eq t.isLt N16
  exact fold_at (ι := Fin 256) (fun n h p => ((outsAt0 m c n (lt_of_lt_of_eq h N16.symm)).2.2.2.2 : Vec Ideal S1x256x1 .f32) (ix3 (0 : Fin 1) p (0 : Fin 1))) (fun n p => chunkDot (V m c main_v1) (V m c main_v1) p p n)
    (fun n h hn i => reset_6 m c n _ hn i) (fun n h hn i => stepAt_6 m c n _ hn i) t.val ht h7 p

/-- The array after the region. -/
theorem arr_6 (c : Dev nD) : (dats m 0 c).arrAt 6 cfg0.N = halfSq (V m c main_v1) :=
  final_6 (dats m 0 c) _ (fun t h7 p => half_6 m c t h7 p)

end Cert.KernelIdeal.Val

end
-- ==== Proof.KiTail.lean ====
/-
  The eighty-one host lines after the region, read as one function of the five arrays the region leaves: each pair of
  half blocks is added over the halves, the two sums of squares are reshaped to vectors, and the Gaussian kernel
  matrices and their mean are formed. The lines write none of the five arrays, so each is read where the region left
  it.
-/
import proofs.«125071_j71829033058812_1_alg».proof.Proof.KiFrame
import proofs.«125071_j71829033058812_1_alg».proof.Proof.Spec
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

/-- The later lines' result from the three [2, 256, 256] arrays of half Gram blocks and the two [2, 256, 1] arrays of
    half sums of squares. -/
def tailOf (g0 g1 g2 : FVec Ideal S2x256x256 .f32) (s0 s1 : FVec Ideal S2x256x1 .f32) : FVec Ideal S_ .f32 :=
  mmd
    (gauss
      (shapeCast S256 (Host.reduceAdd s0 (constant (F := Ideal) S_ .f32 0x00000000#32) reducesTo_S2x256x1_S256x1_d0 h_S_) shapeCasts_S256x1_S256)
      (shapeCast S256 (Host.reduceAdd s0 (constant (F := Ideal) S_ .f32 0x00000000#32) reducesTo_S2x256x1_S256x1_d0 h_S_) shapeCasts_S256x1_S256)
      (Host.reduceAdd g0 (constant (F := Ideal) S_ .f32 0x00000000#32) reducesTo_S2x256x256_S256x256_d0 h_S_))
    (gauss
      (shapeCast S256 (Host.reduceAdd s1 (constant (F := Ideal) S_ .f32 0x00000000#32) reducesTo_S2x256x1_S256x1_d0 h_S_) shapeCasts_S256x1_S256)
      (shapeCast S256 (Host.reduceAdd s1 (constant (F := Ideal) S_ .f32 0x00000000#32) reducesTo_S2x256x1_S256x1_d0 h_S_) shapeCasts_S256x1_S256)
      (Host.reduceAdd g1 (constant (F := Ideal) S_ .f32 0x00000000#32) reducesTo_S2x256x256_S256x256_d0 h_S_))
    (gauss
      (shapeCast S256 (Host.reduceAdd s0 (constant (F := Ideal) S_ .f32 0x00000000#32) reducesTo_S2x256x1_S256x1_d0 h_S_) shapeCasts_S256x1_S256)
      (shapeCast S256 (Host.reduceAdd s1 (constant (F := Ideal) S_ .f32 0x00000000#32) reducesTo_S2x256x1_S256x1_d0 h_S_) shapeCasts_S256x1_S256)
      (Host.reduceAdd g2 (constant (F := Ideal) S_ .f32 0x00000000#32) reducesTo_S2x256x256_S256x256_d0 h_S_))

variable (m : (ℓ : Loc nD τ sig) → Buf (Elt Ideal) ℓ)

set_option maxHeartbeats 16000000 in
/-- After the later lines the result buffer holds `tailOf` of the five arrays as the region left them. -/
theorem tail_eq (c : Dev nD) :
    Pipeline.afterTail₀ cfgs (dats m) 0 (V0 m) [hostOps1] c main_v63
      = tailOf ((dats m 0 c).arrAt 2 cfg0.N) ((dats m 0 c).arrAt 3 cfg0.N) ((dats m 0 c).arrAt 4 cfg0.N)
          ((dats m 0 c).arrAt 5 cfg0.N) ((dats m 0 c).arrAt 6 cfg0.N) := by
  unfold Pipeline.afterTail₀
  simp only [List.flatten_cons, List.flatten_nil, List.append_nil]
  show StableHlo.after hostOps1 _ (Proc.devRef .tc main_v63) = _
  after_results_simp
  rw [Pipeline.withArrays_arr spec0 launch0.win.arr_inj c _ _ 2, Pipeline.withArrays_arr spec0 launch0.win.arr_inj c _ _ 3,
    Pipeline.withArrays_arr spec0 launch0.win.arr_inj c _ _ 4, Pipeline.withArrays_arr spec0 launch0.win.arr_inj c _ _ 5,
    Pipeline.withArrays_arr spec0 launch0.win.arr_inj c _ _ 6]
  rfl

end Cert.KernelIdeal.Val

end
-- ==== Proof.KiBridge.lean ====
/-
  The kernel's per-half arrays summed over the two halves are the whole sums: cutting the contracted axis of length
  100352 into 2 halves of 8 chunks of 6272 columns re-indexes a finite sum, which needs only that addition of extended
  reals is associative and commutative.
-/
import proofs.«125071_j71829033058812_1_alg».proof.Proof.Spec
import Idealize.ShloMosaic.PureOps.Ideal.Laws
import Idealize.ShloMosaic.Lib.Pipeline.Value

noncomputable section

namespace Cert.KernelIdeal.Val

open Cert.KernelIdeal Cert.KernelIdeal.Facts₀ Idealize.ShloMosaic Idealize.ShloMosaic.ValueIdx

variable [Cert.KernelIdeal.Facts]

/-- A double sum over a pair of bounded coordinates (a, b) is the single sum over the combined coordinate a·n + b. -/
private theorem sum_fin_mul {β : Type*} [AddCommMonoid β] (m n : ℕ) (g : ℕ → β) :
    ∑ a : Fin m, ∑ b : Fin n, g (a.val * n + b.val) = ∑ d : Fin (m * n), g d.val := by
  rw [← Fintype.sum_prod_type']
  refine Fintype.sum_equiv finProdFinEquiv _ _ fun x => ?_
  refine congrArg g ?_
  show x.1.val * n + x.2.val = x.2.val + n * x.1.val
  rw [Nat.mul_comm, Nat.add_comm]

/-- Re-indexing a sum over 100352 columns by half, chunk and column within the chunk. -/
theorem sum_chunks {β : Type*} [AddCommMonoid β] (g : ℕ → β) :
    ∑ h : Fin 2, ∑ s ∈ Finset.range 8, ∑ l : Fin 6272, g ((8 * h.val + s) * 6272 + l.val) = ∑ d : Fin 100352, g d.val := by
  have e1 : ∀ h : Fin 2, ∑ s ∈ Finset.range 8, ∑ l : Fin 6272, g ((8 * h.val + s) * 6272 + l.val)
      = ∑ s : Fin 8, ∑ l : Fin 6272, g ((h.val * 8 + s.val) * 6272 + l.val) := fun h => by
    rw [← Fin.sum_univ_eq_sum_range (fun s => ∑ l : Fin 6272, g ((8 * h.val + s) * 6272 + l.val)) 8]
    refine Finset.sum_congr rfl fun s _ => ?_
    rw [Nat.mul_comm 8 h.val]
  rw [Finset.sum_congr rfl fun h _ => e1 h]
  rw [sum_fin_mul 2 8 (fun n => ∑ l : Fin 6272, g (n * 6272 + l.val))]
  exact sum_fin_mul (2 * 8) 6272 g

/-- The two halves' shares of a dot product of two rows add up to the whole dot product: every column read lies
    inside the row, and the columns of the 2 × 8 chunks are all 100352 columns. -/
private theorem halves_dot (A B : FVec Ideal S256x100352 .f32) (p q : Fin 256) :
    ∑ h : Fin 2, halfDot A B h p q = ∑ d : Fin 100352, A (ix2 p d) * B (ix2 q d) := by
  unfold halfDot chunkDot
  simp only [zero_add]
  refine (sum_chunks (fun d => xAt A p d * xAt B q d)).trans ?_
  refine Finset.sum_congr rfl fun d _ => ?_
  unfold xAt
  rw [dif_pos d.isLt, dif_pos d.isLt]

/-- The two halves' row sums of squares, added by the host and reshaped to a vector, are the row sums of squares. -/
theorem sq_of_halves (A : FVec Ideal S256x100352 .f32) :
    shapeCast S256 (Host.reduceAdd (halfSq A) (constant (F := Ideal) S_ .f32 0x00000000#32) reducesTo_S2x256x1_S256x1_d0 h_S_) shapeCasts_S256x1_S256
      = sqsum A := by
  funext i
  obtain ⟨p, rfl⟩ : ∃ p, i = ix1 p := ⟨i 0, eq_ix1 i⟩
  refine (shapeCast_apply _ shapeCasts_S256x1_S256 (ix1 p) (ix2 p (0 : Fin 1)) ?_).trans ?_
  · rw [Shape.rowMajor_val_two, Shape.rowMajor_val_one]
    show p.val * 1 + 0 = p.val
    omega
  · simp only [Host.reduceAdd, Ideal.hostReduceAdd_def]
    rw [Ideal.hostReduceAdd_single reducesTo_S2x256x1_S256x1_d0 (by decide)]
    refine (congrArg₂ (· + ·) Ideal.ofBits_zero_f32
      (Finset.sum_congr rfl (g := fun k : Fin 2 => halfDot A A k p p) fun k _ => rfl)).trans ?_
    rw [zero_add]
    exact halves_dot A A p p

/-- The two halves' Gram blocks, added by the host, are the Gram matrix. -/
theorem gram_of_halves (A B : FVec Ideal S256x100352 .f32) :
    Host.reduceAdd (halfGram A B) (constant (F := Ideal) S_ .f32 0x00000000#32) reducesTo_S2x256x256_S256x256_d0 h_S_
      = gram A B := by
  funext i
  obtain ⟨p, q, rfl⟩ : ∃ p q, i = ix2 p q := ⟨i 0, i 1, eq_ix2 i⟩
  simp only [Host.reduceAdd, Ideal.hostReduceAdd_def]
  rw [Ideal.hostReduceAdd_single reducesTo_S2x256x256_S256x256_d0 (by decide)]
  refine (congrArg₂ (· + ·) Ideal.ofBits_zero_f32
    (Finset.sum_congr rfl (g := fun k : Fin 2 => halfDot A B k p q) fun k _ => rfl)).trans ?_
  rw [zero_add]
  exact halves_dot A B p q

end Cert.KernelIdeal.Val

end
-- ==== Proof.KiValue.lean ====
/-
  The idealized kernel's run, read: the result buffer ends holding the specification applied to the two arguments
  reshaped to [256, 100352] matrices. The region leaves the five arrays of half values; the later lines add the halves
  (which gives the whole row sums of squares and Gram matrices) and form the Gaussian kernel matrices and their mean.
-/
import proofs.«125071_j71829033058812_1_alg».proof.Proof.KiAcc
import proofs.«125071_j71829033058812_1_alg».proof.Proof.KiTail
import proofs.«125071_j71829033058812_1_alg».proof.Proof.KiBridge

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds the first staged array at the first argument reshaped. -/
theorem V_main_v0 (c : Dev nD) :
    (V m c main_v0 : FVec Ideal S256x100352 .f32)
      = shapeCast _ (m ((c.tc : Thread nD τ).loc main_arg0)) Gen.shapeCasts_S256x512x14x14_S256x100352 := by
  dsimp only [V, V0]
  simp only [List.flatten_cons, List.flatten_nil, List.append_nil]
  show StableHlo.after hostOps0 (fun b => m (c, b)) (Proc.devRef .tc main_v0) = _
  after_results
  rfl

/-- And the second at the second argument reshaped. -/
theorem V_main_v1 (c : Dev nD) :
    (V m c main_v1 : FVec Ideal S256x100352 .f32)
      = shapeCast _ (m ((c.tc : Thread nD τ).loc main_arg1)) Gen.shapeCasts_S256x512x14x14_S256x100352 := by
  dsimp only [V, V0]
  simp only [List.flatten_cons, List.flatten_nil, List.append_nil]
  show StableHlo.after hostOps0 (fun b => m (c, b)) (Proc.devRef .tc main_v1) = _
  after_results
  rfl

/-- After the later lines the result buffer holds the specification of the two staged arrays. -/
theorem kernel_value (c : Dev nD) :
    Pipeline.afterTail₀ cfgs (dats m) 0 (V0 m) [hostOps1] c main_v63 = spec (V m c main_v0) (V m c main_v1) := by
  rw [tail_eq, arr_2, arr_3, arr_4, arr_5, arr_6]
  unfold tailOf spec
  rw [sq_of_halves, sq_of_halves, gram_of_halves, gram_of_halves, gram_of_halves]

/-- The run, read: the result at the specification of the reshaped arguments, both arguments unchanged. -/
theorem run_value : θ_run defs (onTc (τ := τ) (main (F := Ideal))) ⟨m, fun _ => 0, ρ⟩ (fun r => ∀ c : Dev nD,
      r.2.mem ((c.tc : Thread nD τ).loc main_v63)
          = spec (shapeCast _ (m ((c.tc : Thread nD τ).loc main_arg0)) Gen.shapeCasts_S256x512x14x14_S256x100352)
              (shapeCast _ (m ((c.tc : Thread nD τ).loc main_arg1)) Gen.shapeCasts_S256x512x14x14_S256x100352)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v63 (Pipeline.mem_restRefs_of main_v63 (by decide) (by decide))).trans
          ((kernel_value m c).trans (by rw [V_main_v0, V_main_v1])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Val

end
-- ==== Proof.RefValue.lean ====
/-
  The reference's value: its run's result term, read as the specification applied to the two arguments reshaped to
  [256, 100352] matrices. The reference sums each row's squares in one host sum and forms each Gram matrix by one
  matrix product against a transpose; index by index these are `sqsum` and `gram`.
-/
import proofs.«125071_j71829033058812_1_alg».proof.Defs
import proofs.«125071_j71829033058812_1_alg».proof.Proof.Gen.KernelIdeal
import proofs.«125071_j71829033058812_1_alg».proof.Proof.Gen.ReferenceIdeal.Run
import proofs.«125071_j71829033058812_1_alg».proof.Proof.Gen.ReferenceIdeal.Read
import proofs.«125071_j71829033058812_1_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- One host sum over the second axis of the entrywise square is the row sum of squares. -/
private theorem ref_sq (X : FVec Ideal S256x100352 .f32) :
    Host.reduceAdd (mulf X X) (constant (F := Ideal) S_ .f32 0x00000000#32)
        Facts₀.reducesTo_S256x100352_S256_d1 Facts₀.h_S_
      = Cert.KernelIdeal.Val.sqsum X := by
  funext i
  simp only [Host.reduceAdd, Ideal.hostReduceAdd_def]
  rw [Ideal.hostReduceAdd_single Facts₀.reducesTo_S256x100352_S256_d1 (by decide)]
  unfold Cert.KernelIdeal.Val.sqsum
  refine (congrArg (· + _) Ideal.ofBits_zero_f32).trans ?_
  rw [zero_add]
  refine Finset.sum_congr rfl fun k _ => ?_
  exact congrArg (fun j => X j * X j)
    (funext fun a => Fin.ext (by match a with | ⟨0, _⟩ => rfl | ⟨1, _⟩ => rfl))

/-- One matrix product against the transpose is the Gram matrix of the rows. -/
private theorem ref_gram (A B : FVec Ideal S256x100352 .f32) :
    Host.dotGeneral dot_S256x100352_S100352x256_S256x256_1_0_0_1_n_n none A
        (transpose S100352x256 [1, 0] B Facts₀.transposes_S256x100352_S100352x256_1_0)
      = Cert.KernelIdeal.Val.gram A B := by
  funext i
  simp only [Host.dotGeneral]
  rw [Ideal.dotGeneral_apply, ← Equiv.sum_comp (contrEquiv1 dot_S256x100352_S100352x256_S256x256_1_0_0_1_n_n 100352 rfl rfl).symm]
  unfold Cert.KernelIdeal.Val.gram
  refine Finset.sum_congr rfl fun k _ => ?_
  have hk := contrEquiv1_symm_val dot_S256x100352_S100352x256_S256x256_1_0_0_1_n_n 100352 rfl rfl k
  have el : dot_S256x100352_S100352x256_S256x256_1_0_0_1_n_n.lhsIdx i ((contrEquiv1 dot_S256x100352_S100352x256_S256x256_1_0_0_1_n_n 100352 rfl rfl).symm k) = ix2 (i 0) k :=
    funext fun a => Fin.ext (by
      match a with
      | ⟨0, _⟩ => exact Read.lhs_main_v7_0 _ _
      | ⟨1, _⟩ => exact (Read.lhs_main_v7_1 _ _).trans hk)
  have er : dot_S256x100352_S100352x256_S256x256_1_0_0_1_n_n.rhsIdx i ((contrEquiv1 dot_S256x100352_S100352x256_S256x256_1_0_0_1_n_n 100352 rfl rfl).symm k) = ix2 k (i 1) :=
    funext fun a => Fin.ext (by
      match a with
      | ⟨0, _⟩ => exact (Read.rhs_main_v7_0 _ _).trans hk
      | ⟨1, _⟩ => exact Read.rhs_main_v7_1 _ _)
  rw [el, er]
  refine congrArg (A (ix2 (i 0) k) * ·) ?_
  exact transpose_apply [1, 0] B Facts₀.transposes_S256x100352_S100352x256_1_0 (ix2 k (i 1)) (ix2 (i 1) k)
    (fun b => match b with
      | ⟨0, _⟩ => rfl
      | ⟨1, _⟩ => rfl)

set_option maxRecDepth 8192 in
/-- The reference's result is the specification of its two arguments read as matrices. -/
theorem ref_value (m' : (ℓ : Loc nD τ sig) → Buf (Elt Ideal) ℓ) (c : Dev nD) :
    Cert.ReferenceIdeal.Value.res_main_v73 (F := Ideal) m' c
      = Cert.KernelIdeal.Val.spec
          (shapeCast _ (m' ((c.tc : Thread nD τ).loc main_arg0)) Cert.ReferenceIdeal.Facts₀.shapeCasts_S256x512x14x14_S256x100352)
          (shapeCast _ (m' ((c.tc : Thread nD τ).loc main_arg1)) Cert.ReferenceIdeal.Facts₀.shapeCasts_S256x512x14x14_S256x100352) := by
  unfold Cert.ReferenceIdeal.Value.res_main_v73 Cert.KernelIdeal.Val.spec Cert.KernelIdeal.Val.mmd
    Cert.KernelIdeal.Val.gauss
  rw [ref_sq, ref_sq, ref_gram, ref_gram, ref_gram]

end Cert.ReferenceIdeal.RefValue

end
-- ==== Proof.lean ====
/-
  The claim: a chunked maximum-mean-discrepancy loss against its plain reference, over the extended reals.

  The kernel reduces the contracted axis (100352 = 2 halves × 8 chunks × 6272 columns) inside one pipelined region:
  per half it accumulates, chunk by chunk, the three Gram blocks X·Xᵀ, Y·Yᵀ, X·Yᵀ (a matrix product into zero of a
  chunk against its transpose; the change of float format before it is the identity over the reals) and the two
  row sums of squares; the host then adds the two halves and forms exp(−(max(a2ᵢ + b2ⱼ − 2·abᵢⱼ, 0) / 100352) / 2) three
  times and the mean of kxx + kyy − 2·kxy. The reference forms the same row sums and Gram matrices in one host sum and
  one matrix product each, and applies the same chain with the same constants. The two agree because a sum over
  100352 columns may be taken by halves and chunks: addition of extended reals is associative and commutative, and no
  other law is used, so the precondition (finite inputs) is not needed for the value.

  Frames: the kernel's two programs run by the pipeline's launch theorem for a region continued by host lines, the
  body's obligation met per grid point by running the body whole in each of its two cases; the reference's by its run.
  The ideal pass rewrote nothing, so there is nothing to preserve.
-/
import proofs.«125071_j71829033058812_1_alg».proof.Defs
import proofs.«125071_j71829033058812_1_alg».proof.Proof.Gen.Kernel
import proofs.«125071_j71829033058812_1_alg».proof.Proof.Gen.KernelIdeal
import proofs.«125071_j71829033058812_1_alg».proof.Proof.Gen.ReferenceIdeal
import proofs.«125071_j71829033058812_1_alg».proof.Proof.Gen.Pre_finite_inputs
import proofs.«125071_j71829033058812_1_alg».proof.Proof.KFrame
import proofs.«125071_j71829033058812_1_alg».proof.Proof.KiFrame
import proofs.«125071_j71829033058812_1_alg».proof.Proof.KiValue
import proofs.«125071_j71829033058812_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification of arguments that agree. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_value, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
